-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩

abbrev nBuf : Space → Nat
  | .hbm => 49
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .i32⟩
  | .hbm, ⟨9, _⟩ => ⟨S1x8192, .i32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S8192, .i1⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_call2_v0 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v67 : BitVec 1 := Scalar.cmpi .eq arg1 c15_i32
  let v68 : BitVec 32 := Scalar.extui v67
  let c0_i32_32 : BitVec 32 := 0#32
  let v69 : BitVec 1 := Scalar.cmpi .ne v68 c0_i32_32
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192, .i32⟩
  | .hbm, ⟨40, _⟩ => ⟨S8192x1, .i32⟩
  | .hbm, ⟨41, _⟩ => ⟨S8192, .i32⟩
  | .hbm, ⟨42, _⟩ => ⟨S1x8192, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S8192x8192, .i1⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S_, .i1⟩
  | .hbm, ⟨62, _⟩ => ⟨S8192, .i1⟩
  | .hbm, ⟨63, _⟩ => ⟨S_, .i1⟩
  | .hbm, ⟨64, _⟩ => ⟨S8192, .i1⟩
  | .hbm, ⟨65, _⟩ => ⟨S8192, .i1⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_call2_v0 : Ref sig .tc := ⟨.hbm, 50, rfl⟩
abbrev main_call2_v1 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_call3_v0 : Ref sig .tc := ⟨.hbm, 56, rfl⟩
abbrev main_call3_v1 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_call4_v0 : Ref sig .tc := ⟨.hbm, 68, rfl⟩
abbrev main_call4_v1 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_call5_v0 : Ref sig .tc := ⟨.hbm, 78, rfl⟩
abbrev main_call5_v1 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_cst_17 : Ref sig .tc := ⟨.hbm, 86, rfl⟩
abbrev main_v53 : Ref sig .tc := ⟨.hbm, 87, rfl⟩
abbrev main_cst_18 : Ref sig .tc := ⟨.hbm, 88, rfl⟩
abbrev main_v54 : Ref sig .tc := ⟨.hbm, 89, rfl⟩
abbrev main_v55 : Ref sig .tc := ⟨.hbm, 90, rfl⟩
abbrev main_cst_19 : Ref sig .tc := ⟨.hbm, 91, rfl⟩
abbrev main_call6_v0 : Ref sig .tc := ⟨.hbm, 92, rfl⟩
abbrev main_v56 : Ref sig .tc := ⟨.hbm, 93, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KShared.lean ====
/-
  The pairwise-distance kernel's region: what its three control cases' runs share.
  The arrays as the region finds them, @main as the host lines before the region, the region and the
  host lines after it; each input window's block at a grid point; the two conditions of the body
  (first column tile: reset the running maximum and minimum; last column tile: hand them to the
  outputs) in closed form over the 8 x 16 grid; where the two output windows are idle; the staging and
  scratch buffers the body is called on.
-/
import proofs.«167929_j87471303950746_1_alg».proof.Proof.Gen.Kernel.Launch
import proofs.«167929_j87471303950746_1_alg».proof.Proof.Gen.Kernel.Skeleton
import proofs.«167929_j87471303950746_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the eight host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4, hostOps1_5]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The arrays of the region are unscoped buffers. -/
theorem arr_unscoped0 : ∀ w, (Pipeline.arrRef spec0 w).isScoped = false := winFacts₀0.arr_unscoped

/-- The lines after the region touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 arr_unscoped0]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
/-- And they write no array of the region: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  all_goals
    simp only [hostOps1, hostOps1_1, hostOps1_2, hostOps1_3, hostOps1_4, hostOps1_5, List.mem_cons, List.mem_nil_iff, or_false] at hop
    rcases hop with rfl | rfl | rfl | rfl | rfl | rfl | rfl | rfl | rfl | rfl | rfl <;>
    (intro w; fin_cases w <;> simp only [StableHlo.TRef.unary, StableHlo.TRef.ternary, StableHlo.nullary_writes, StableHlo.unary_writes, StableHlo.binary_writes, StableHlo.ternary_writes, StableHlo.reshape_writes, Finset.mem_singleton] <;> exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition of the body: the point is in the first column tile. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second condition of the body: the point is in the last column tile. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last column tile the body stores nothing into output window 6, and the pipeline does not write it back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- On the last column tile it is live. -/
theorem liveAt0_6_C : ∀ t : Fin cfg0.N, cond0_1 (grid0.coords t) → cfg0.idle 6 (grid0.coords t) = false := by decide +kernel
/-- Off the last column tile the body stores nothing into output window 7, and the pipeline does not write it back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- On the last column tile it is live. -/
theorem liveAt0_7_C : ∀ t : Fin cfg0.N, cond0_1 (grid0.coords t) → cfg0.idle 7 (grid0.coords t) = false := by decide +kernel

/-! ## The buffers the body is called on -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- The two scratch buffers: the running maximum and the running minimum of a row tile. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/-
  The body's run at the first column tile of a row tile: the running maximum and minimum are reset to -inf and +inf, then updated by this tile; the outputs are not touched.
-/
import proofs.«167929_j87471303950746_1_alg».proof.Proof.KShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the six inputs at their contents, the body runs to the end; it leaves the inputs as they
    were and each buffer it stores into with the listed pieces written. The pieces are what the run finds. -/
noncomputable def kernelRun0_A (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__hardest_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__hardest_kernel_eq_skeleton]; unfold cc0__hardest_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.KRunB.lean ====
/-
  The body's run at a middle column tile: the running maximum and minimum are updated by this tile; the outputs are not touched.
-/
import proofs.«167929_j87471303950746_1_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the six inputs at their contents, the body runs to the end; it leaves the inputs as they
    were and each buffer it stores into with the listed pieces written. The pieces are what the run finds. -/
noncomputable def kernelRun0_B (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__hardest_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__hardest_kernel_eq_skeleton]; unfold cc0__hardest_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.KRunC.lean ====
/-
  The body's run at the last column tile: the running maximum and minimum are updated by this tile and then stored into the two outputs.
-/
import proofs.«167929_j87471303950746_1_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the six inputs at their contents, the body runs to the end; it leaves the inputs as they
    were and each buffer it stores into with the listed pieces written. The pieces are what the run finds. -/
noncomputable def kernelRun0_C (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__hardest_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__hardest_kernel_eq_skeleton]; unfold cc0__hardest_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Hand

end
-- ==== Proof.KFrame.lean ====
/-
  The region's proof data. After each grid point: what the two scratch buffers (the running maximum of
  the positives' distances and the running minimum of the negatives' over the column tiles seen so far in
  this row tile) and the two output staging buffers hold, by recursion on the point; the invariant that
  carries the scratches from point to point; the body's obligation at every point, by the three cases;
  the array read through two windows held at two half shares.
-/
import proofs.«167929_j87471303950746_1_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the running-maximum scratch cover it. -/
theorem scover0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x1.size (by sl_kernel_rfl) y

/-- What case A leaves in the running-maximum scratch: its pieces read back. -/
def sout0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A's pieces for the running-minimum scratch cover it. -/
theorem scover0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What case A leaves in the running-minimum scratch: its pieces read back. -/
def sout0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case B's pieces for the running-maximum scratch cover it. -/
theorem scover0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case B leaves in the running-maximum scratch: its pieces read back. -/
def sout0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for the running-minimum scratch cover it. -/
theorem scover0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case B leaves in the running-minimum scratch: its pieces read back. -/
def sout0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for the first output's staging buffer cover it. -/
theorem cover0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case C leaves in the first output's staging buffer: its pieces read back. -/
def out0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for the second output's staging buffer cover it. -/
theorem cover0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case C leaves in the second output's staging buffer: its pieces read back. -/
def out0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for the running-maximum scratch cover it. -/
theorem scover0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in the running-maximum scratch: its pieces read back. -/
def sout0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for the running-minimum scratch cover it. -/
theorem scover0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in the running-minimum scratch: its pieces read back. -/
def sout0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the buffers hold after each point -/

/-- An output's staging buffer at a point that stores nothing into it: a placeholder nothing reads. -/
def idleOut : Vec F S1024x1 .f32 := VO0_6.read (Elt F) (VO0_6.writes (Elt F) VO0_6.junk [])

/-- (first output, second output, maximum scratch, minimum scratch) after a point of each case. -/
def caseA (c : Dev nD) (t : Fin cfg0.N) (h0 : t.val % 16 = 0) (h1 : ¬t.val % 16 = 15) :
    Vec F S1024x1 .f32 × Vec F S1024x1 .f32 × Vec F S1024x1 .f32 × Vec F S1024x1 .f32 :=
  (idleOut, idleOut,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))
def caseB (c : Dev nD) (t : Fin cfg0.N) (h0 : ¬t.val % 16 = 0) (h1 : ¬t.val % 16 = 15) (p0 p1 : Vec F S1024x1 .f32) :
    Vec F S1024x1 .f32 × Vec F S1024x1 .f32 × Vec F S1024x1 .f32 × Vec F S1024x1 .f32 :=
  (idleOut, idleOut,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1)
def caseC (c : Dev nD) (t : Fin cfg0.N) (h0 : ¬t.val % 16 = 0) (h1 : t.val % 16 = 15) (p0 p1 : Vec F S1024x1 .f32) :
    Vec F S1024x1 .f32 × Vec F S1024x1 .f32 × Vec F S1024x1 .f32 × Vec F S1024x1 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1)

/-- THE ACCUMULATION over the points: the case the point is in, a middle or last column tile over what the point before left
    in the two scratches. -/
def outsAt0 (c : Dev nD) : (n : ℕ) → n < cfg0.N → Vec F S1024x1 .f32 × Vec F S1024x1 .f32 × Vec F S1024x1 .f32 × Vec F S1024x1 .f32
  | 0, hn => caseA m c ⟨0, hn⟩ (Nat.zero_mod _) (by show ¬ (0 : ℕ) % 16 = 15; decide)
  | n + 1, hn =>
    if h0 : (n + 1) % 16 = 0 then caseA m c ⟨n + 1, hn⟩ h0 (by show ¬ (n + 1) % 16 = 15; omega)
    else if h1 : (n + 1) % 16 = 15 then
      caseC m c ⟨n + 1, hn⟩ h0 h1 (outsAt0 c n (Nat.lt_of_succ_lt hn)).2.2.1 (outsAt0 c n (Nat.lt_of_succ_lt hn)).2.2.2
    else caseB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 m c t.val t.isLt = caseA m c t h0 h1 := by
  obtain ⟨n, hn⟩ := t
  cases n with
  | zero => rfl
  | succ n => exact (dif_pos h0).trans rfl

theorem outsAt0_B (c : Dev nD) (t : Fin cfg0.N) (h0 : ¬t.val % 16 = 0) (h1 : ¬t.val % 16 = 15) :
    outsAt0 m c t.val t.isLt = caseB m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = caseC m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region's invariant before position `n`: before the first point both scratches at anything; afterwards each at what
    the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

/-- The proof data of the pipeline on core `c`. The array the kernel reads through windows 0 and 1 is held at the two
    halves of the full share, one per window; every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨_ + 8, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the point's position in its row of column tiles says which case
    it is in; the invariant hands the body the two scratches at what the point before left (at anything at the very first point) and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have h1 : ¬t.val % 16 = 15 := by omega
    rw [Dat.leavesExact_idle (dats m 0 c) 6 t (idleAt0_6 t (fun h => h1 ((hcond0_1 t).mp h))) (noFlush0_6 t (fun h => h1 ((hcond0_1 t).mp h)))]
    rw [Dat.leavesExact_idle (dats m 0 c) 7 t (idleAt0_7 t (fun h => h1 ((hcond0_1 t).mp h))) (noFlush0_7 t (fun h => h1 ((hcond0_1 t).mp h)))]
    rw [outsAt0_A m c t h0 h1]
    unfold caseA sout0_A_0 sout0_A_1; (try dsimp only)
    by_cases hz : t.val = 0
    ·
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    ·
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    by_cases h1 : t.val % 16 = 15
    · rw [show (dats m 0 c).leavesExact 6 t = owns (c : Thread nD τ) (ms0_6 t) fullShare ((dats m 0 c).after 6 t) from by
        unfold Dat.leavesExact; rw [liveAt0_6_C t ((hcond0_1 t).mpr h1)], after0_6]
      rw [show (dats m 0 c).leavesExact 7 t = owns (c : Thread nD τ) (ms0_7 t) fullShare ((dats m 0 c).after 7 t) from by
        unfold Dat.leavesExact; rw [liveAt0_7_C t ((hcond0_1 t).mpr h1)], after0_7]
      rw [outsAt0_C m c t h0 h1]
      unfold caseC out0_C_6 out0_C_7 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [Dat.leavesExact_idle (dats m 0 c) 7 t (idleAt0_7 t (fun h => h1 ((hcond0_1 t).mp h))) (noFlush0_7 t (fun h => h1 ((hcond0_1 t).mp h)))]
      rw [outsAt0_B m c t h0 h1]
      unfold caseB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratches' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.LibSharedArrayLaunch.lean ====
/-
  A pallas_call whose windows SHARE an array (one array handed to the kernel through several input
  windows), with host operations before and after it.

  The library's frame run around a region asks that the windows' arrays be pairwise distinct, because it
  hands every array to the pipeline at the full share. Here the certificate says instead how the buffers
  behind the arrays, each whole at the full share, make the pipeline's arrays at entry (`hsplit`: an array
  read through two windows is split into two shares), and how the arrays at exit make those buffers again
  (`hjoin`, `hjoin'`), at an exit valuation `Wx` that agrees with the entry contents off the arrays. The
  lines after the region then run on whole buffers, and the final state has every array at what the
  write-backs leave and every other unscoped buffer at the lines' results from `Wx`.
-/
import Idealize.ShloMosaic.Lib.Pipeline.FrameSuffix

noncomputable section

namespace SharedArrayLaunch

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The buffers a line after the region may touch, held at `Wv`, are the distinct buffers behind the windows' arrays
    and the buffers that bypass the region, each whole at the full share at `Wv`. No window's array is a bypassing
    buffer, so the set is a disjoint union; nothing is asked of how many windows read one array. -/
theorem held_tailRefs_arrBufs {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- THE FRAME RUN around a region whose windows may share arrays, with a tracking invariant. -/
theorem θ_run_frame_around_track_shared
    (hcell : Function.Injective (cellOf (nD := nD) (τ := τ) cfgs))
    (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hjoin : ∀ c, ((dats p c).arrays ((dats p c).arrAt · (cfgs p).N) : sProp 𝕄)
      ⊢ arrBufs (cfgs p).spec c (fun b => Wx c (Proc.devRef .tc b)))
    (hjoin' : ∀ c, (arrBufs (cfgs p).spec c (fun b => Wx c (Proc.devRef .tc b)) : sProp 𝕄)
      ⊢ (dats p c).arrays ((dats p c).arrAt · (cfgs p).N))
    (hWx : ∀ c, ∀ b ∈ restRefs sig (cfgs p).spec, Wx c (Proc.devRef .tc b) = V₀ c (Proc.devRef .tc b))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (Wx c) (Proc.devRef .tc b))) := by
  classical
  -- the bypassing buffers hold the same at the exit valuation as at entry: the region does not touch them
  have hZ : ∀ c, (unscopedRestP (Ix := Unit) (Name := ℕ) (U := UR sig nD τ) (Lvl := ℕ) Prefetch.none (cfgs p).spec c
        (fun b => Wx c (Proc.devRef .tc b)) : sProp 𝕄)
      = unscopedRestP Prefetch.none (cfgs p).spec c (fun b => V₀ c (Proc.devRef .tc b)) := fun c => by
    unfold unscopedRestP
    exact bigSep_congr fun b hb => by dsimp only; rw [hWx c b (Finset.mem_sdiff.mp hb).1]
  -- the lines write no array, so the buffers behind the arrays hold after the lines what they held at the exit
  have hA : ∀ c, (arrBufs (Ix := Unit) (Name := ℕ) (U := UR sig nD τ) (Lvl := ℕ) (cfgs p).spec c
        (fun b => StableHlo.after opss.flatten (Wx c) (Proc.devRef .tc b)) : sProp 𝕄)
      = arrBufs (cfgs p).spec c (fun b => Wx c (Proc.devRef .tc b)) := fun c => by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop'⟩ := List.mem_flatten.mp hop
    exact hkeep ops hops op hop' w
  -- the region's exit, read as the buffers the lines run within, at the exit valuation
  have hentry : ∀ c, iprop(boundary (c.tc : Thread nD τ) ∗ ((dats p c).arrays ((dats p c).arrAt · (cfgs p).N) : sProp 𝕄)
        ∗ unscopedRestP Prefetch.none (cfgs p).spec c (fun b => V₀ c (Proc.devRef .tc b)))
      ⊢ iprop(boundary (c.tc : Thread nD τ)
        ∗ (StableHlo.held (c.tc : Thread nD τ) (tailRefs sig Prefetch.none (cfgs p).spec) (Wx c) : sProp 𝕄)) := fun c => by
    rw [held_tailRefs_arrBufs, hZ c]
    iintro ⟨Hb, Ha, HZ⟩
    isplitl [Hb]; · iexact Hb
    isplitl [Ha]; · iapply (hjoin c); iexact Ha
    iexact HZ
  -- and those buffers after the lines, read back as the pipeline's arrays and the bypassing buffers
  have hexit : ∀ c, (StableHlo.held (c.tc : Thread nD τ) (tailRefs sig Prefetch.none (cfgs p).spec)
        (StableHlo.after opss.flatten (Wx c)) : sProp 𝕄)
      ⊢ iprop((dats p c).arrays ((dats p c).arrAt · (cfgs p).N)
        ∗ unscopedRestP Prefetch.none (cfgs p).spec c (fun b => StableHlo.after opss.flatten (Wx c) (Proc.devRef .tc b))) := fun c => by
    rw [held_tailRefs_arrBufs, hA c]
    iintro ⟨Ha, HZ⟩
    isplitl [Ha]; · iapply (hjoin' c); iexact Ha
    iexact HZ
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (Wx c) (Proc.devRef .tc b)))
    (hX := fun c => by
      iintro ⟨HU, -, -, -, Hp, -⟩; imodintro
      isplitl [Hp]; · iexists _; iexact Hp
      iexact HU)
    (hin := fun c => by
      refine Entails.trans ?_ (hin c)
      unfold ΦA
      iintro ⟨Hp, -, Hr⟩
      isplitl [Hr] <;> iassumption)
    (hout := fun c => by
      refine (hout c).trans ?_
      rw [ownSems0_none]; unfold ΦA
      iintro ⟨Hr, Hp⟩
      isplitl [Hp]; · iexact Hp
      isplitr; · iempintro
      iexact Hr)
    (htail := fun c Q' => by
      rw [← List.append_nil (opss.map StableHlo.seq)]
      iintro ⟨Hk, Hb⟩
      ihave Hb' := (hentry c) $$ Hb
      iapply (wp_seqs_then (fun q => (cfgs q).toPCfg (Val := Val)) defs₀ 𝒱₀ c (tailRefs sig Prefetch.none (cfgs p).spec) [] opss hsub hfresh (Wx c)) $$ Hb'
      iintro Hb
      rw [chain_nil, wp_pure]
      imodintro
      iapply Hk
      icases Hb with ⟨-, H⟩
      iapply (hexit c); iexact H)
    (QY := fun c s => ∀ b ∈ restRefsP sig Prefetch.none (cfgs p).spec,
      s.mem ((c.tc : Thread nD τ).loc b) = StableHlo.after opss.flatten (Wx c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (Wx c) (Proc.devRef .tc b)) s')
      isplitl [HU] <;> iassumption)
    (hQ := fun s h c => ⟨(h c).1, rest_of_restP Prefetch.none (cfgs p).spec _ c _ s (fun k => k.elim0) (h c).2.1 (h c).2.2⟩)

end SharedArrayLaunch

end
-- ==== Proof.KLaunch.lean ====
/-
  The launch of the region and the run of @main. The kernel reads one array (the features, rounded) through
  two windows, a row tile and a column tile of it: the array's full share is dealt to the two windows in
  halves at the region's entry and joined again at its exit. The exit valuation is the entry's with the two
  result arrays at what the write-backs left. From the run: the two arguments end as they began.
-/
import proofs.«167929_j87471303950746_1_alg».proof.Proof.KFrame
import proofs.«167929_j87471303950746_1_alg».proof.Proof.LibSharedArrayLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The buffers after the region: the two results at what the write-backs left, every other buffer as at the entry. -/
def Wx (c : Dev nD) : Valuation τ sig (Elt F) :=
  Function.update (Function.update (V0 m c) (Proc.devRef .tc main_v7_0) ((dats m 0 c).arrAt 6 cfg0.N))
    (Proc.devRef .tc main_v7_1) ((dats m 0 c).arrAt 7 cfg0.N)

theorem Wx_6 (c : Dev nD) : Wx m c (Proc.devRef .tc main_v7_0) = (dats m 0 c).arrAt 6 cfg0.N := by
  unfold Wx
  rw [Function.update_of_ne (StableHlo.devRef_ne_of_ne (by decide)), Function.update_self]

theorem Wx_7 (c : Dev nD) : Wx m c (Proc.devRef .tc main_v7_1) = (dats m 0 c).arrAt 7 cfg0.N := by
  unfold Wx
  rw [Function.update_self]

theorem Wx_other (c : Dev nD) (b : Ref sig .tc) (h6 : b ≠ main_v7_0) (h7 : b ≠ main_v7_1) :
    Wx m c (Proc.devRef .tc b) = V0 m c (Proc.devRef .tc b) := by
  unfold Wx
  rw [Function.update_of_ne (StableHlo.devRef_ne_of_ne h7), Function.update_of_ne (StableHlo.devRef_ne_of_ne h6)]

/-- Off the arrays the exit valuation is the entry's. -/
theorem hWx (c : Dev nD) : ∀ b ∈ Pipeline.restRefs sig spec0, Wx m c (Proc.devRef .tc b) = V0 m c (Proc.devRef .tc b) := by
  intro b hb
  have hni := (Finset.mem_sdiff.mp hb).2
  refine Wx_other m c b (fun h => hni ?_) (fun h => hni ?_)
  · rw [h]; exact Finset.mem_image.mpr ⟨6, Finset.mem_univ _, rfl⟩
  · rw [h]; exact Finset.mem_image.mpr ⟨7, Finset.mem_univ _, rfl⟩

/-- The distinct buffers behind the eight windows' arrays are seven. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0)
        ∗ (((c.tc : Thread nD τ).loc main_v3) ↦{fullShare} W main_v3)
        ∗ (((c.tc : Thread nD τ).loc main_v4) ↦{fullShare} W main_v4)
        ∗ (((c.tc : Thread nD τ).loc main_v5) ↦{fullShare} W main_v5)
        ∗ (((c.tc : Thread nD τ).loc main_v6) ↦{fullShare} W main_v6)
        ∗ (((c.tc : Thread nD τ).loc main_v7_0) ↦{fullShare} W main_v7_0)
        ∗ (((c.tc : Thread nD τ).loc main_v7_1) ↦{fullShare} W main_v7_1)) := by
  unfold Pipeline.arrBufs
  rw [bigSep_eq_bigSepL_of_eq [main_v0, main_v3, main_v4, main_v5, main_v6, main_v7_0, main_v7_1] (by decide) (by decide)]
  rfl

/-- The pipeline's arrays, window by window, each at its share. -/
theorem arrays_eq8 (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0)
        ∗ (((c.tc : Thread nD τ).loc main_v0) ↦{fullShare.right} G 1)
        ∗ (((c.tc : Thread nD τ).loc main_v3) ↦{fullShare} G 2)
        ∗ (((c.tc : Thread nD τ).loc main_v4) ↦{fullShare} G 3)
        ∗ (((c.tc : Thread nD τ).loc main_v5) ↦{fullShare} G 4)
        ∗ (((c.tc : Thread nD τ).loc main_v6) ↦{fullShare} G 5)
        ∗ (((c.tc : Thread nD τ).loc main_v7_0) ↦{fullShare} G 6)
        ∗ (((c.tc : Thread nD τ).loc main_v7_1) ↦{fullShare} G 7)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ]
  rfl

/-- At the entry: the shared array's full share is split between the two windows on it. -/
theorem hsplit (c : Dev nD) : (Pipeline.arrBufs (Ix := Unit) (Name := ℕ) (U := UR sig nD τ) (Lvl := ℕ) spec0 c (fun b => V0 m c (Proc.devRef .tc b)) : sProp 𝕄)
    ⊢ (dats m 0 c).arrays ((dats m 0 c).arrAt · 0) := by
  rw [arrBufs_eq, arrays_eq8]
  iintro ⟨H0, H3, H4, H5, H6, H70, H71⟩
  ihave H := (pointsTo_share (PosShare.mem_left_op_right fullShare)).1 $$ H0
  icases H with ⟨Hl, Hr⟩
  isplitl [Hl]; · iexact Hl
  isplitl [Hr]; · iexact Hr
  isplitl [H3]; · iexact H3
  isplitl [H4]; · iexact H4
  isplitl [H5]; · iexact H5
  isplitl [H6]; · iexact H6
  isplitl [H70]; · iexact H70
  iexact H71

theorem arrAt_in_N (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- At the exit: the halves join, and each array holds what the exit valuation says. -/
theorem hjoin (c : Dev nD) : ((dats m 0 c).arrays ((dats m 0 c).arrAt · cfg0.N) : sProp 𝕄)
    ⊢ Pipeline.arrBufs (Ix := Unit) (Name := ℕ) (U := UR sig nD τ) (Lvl := ℕ) spec0 c (fun b => Wx m c (Proc.devRef .tc b)) := by
  rw [arrBufs_eq, arrays_eq8]
  rw [arrAt_in_N m c 0 rfl, arrAt_in_N m c 1 rfl, arrAt_in_N m c 2 rfl, arrAt_in_N m c 3 rfl, arrAt_in_N m c 4 rfl, arrAt_in_N m c 5 rfl]
  rw [Wx_6, Wx_7, Wx_other m c main_v0 (by decide) (by decide), Wx_other m c main_v3 (by decide) (by decide), Wx_other m c main_v4 (by decide) (by decide),
    Wx_other m c main_v5 (by decide) (by decide), Wx_other m c main_v6 (by decide) (by decide)]
  iintro ⟨Hl, Hr, H3, H4, H5, H6, H70, H71⟩
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H70]; · iexact H70
  iexact H71

/-- And back. -/
theorem hjoin' (c : Dev nD) : (Pipeline.arrBufs (Ix := Unit) (Name := ℕ) (U := UR sig nD τ) (Lvl := ℕ) spec0 c (fun b => Wx m c (Proc.devRef .tc b)) : sProp 𝕄)
    ⊢ (dats m 0 c).arrays ((dats m 0 c).arrAt · cfg0.N) := by
  rw [arrBufs_eq, arrays_eq8]
  rw [arrAt_in_N m c 0 rfl, arrAt_in_N m c 1 rfl, arrAt_in_N m c 2 rfl, arrAt_in_N m c 3 rfl, arrAt_in_N m c 4 rfl, arrAt_in_N m c 5 rfl]
  rw [Wx_6, Wx_7, Wx_other m c main_v0 (by decide) (by decide), Wx_other m c main_v3 (by decide) (by decide), Wx_other m c main_v4 (by decide) (by decide),
    Wx_other m c main_v5 (by decide) (by decide), Wx_other m c main_v6 (by decide) (by decide)]
  iintro ⟨H0, H3, H4, H5, H6, H70, H71⟩
  ihave H := (pointsTo_share (PosShare.mem_left_op_right fullShare)).1 $$ H0
  icases H with ⟨Hl, Hr⟩
  isplitl [Hl]; · iexact Hl
  isplitl [Hr]; · iexact Hr
  isplitl [H3]; · iexact H3
  isplitl [H4]; · iexact H4
  isplitl [H5]; · iexact H5
  isplitl [H6]; · iexact H6
  isplitl [H70]; · iexact H70
  iexact H71

set_option backward.isDefEq.respectTransparency.types false in
/-- Every weakly fair execution of @main terminates, and in every final state each array of the region holds what the
    write-backs left and every other unscoped buffer what the host lines after the region leave from the exit valuation. -/
theorem run_main : θ_run defs (onTc (τ := τ) (main (F := F))) (s₀ m ρ)
    (Pipeline.FramePost cfgs (dats m) 0 (fun c b => StableHlo.after (tailOps (F := F)).flatten (Wx m c) (Proc.devRef .tc b))) :=
  SharedArrayLaunch.θ_run_frame_around_track_shared cfgs (dats m) (0 : Fin 1) defs₀ Variants.none cellOf_inj winFacts₀0 block_pos0 arr_whole0 stage_whole0
    m ρ main (hbody := fun c => (body_obligation m c).loose) (howed := fun _ _ => rfl) (V₀ := V0 m) (Wx := Wx m) (opss := tailOps)
    (hsub := sfx_sub) (hfresh := sfx_fresh) (hkeep := sfx_keeps) (hmain := hmain m Variants.none)
    (hsplit := hsplit m) (hjoin := hjoin m) (hjoin' := hjoin' m) (hWx := hWx m) (hin := hin m) (hout := hout m)

/-- No host line writes an argument of @main. -/
theorem V0_arg (c : Dev nD) (b : Ref sig .tc) (hb : b = main_arg0 ∨ b = main_arg1) :
    V0 m c (Proc.devRef .tc b) = m ((c.tc : Thread nD τ).loc b) := by
  unfold V0
  rw [StableHlo.after_of_forall_not_mem _ _ fun op hop => ?_]
  simp only [List.flatten_cons, List.flatten_nil, List.append_nil, hostOps0, List.mem_cons, List.mem_nil_iff, or_false] at hop
  rcases hb with rfl | rfl <;> rcases hop with rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem tail_arg (c : Dev nD) (W : Valuation τ sig (Elt F)) (b : Ref sig .tc) (hb : b = main_arg0 ∨ b = main_arg1) :
    StableHlo.after (tailOps (F := F)).flatten W (Proc.devRef .tc b) = W (Proc.devRef .tc b) := by
  rw [StableHlo.after_of_forall_not_mem _ _ fun op hop => ?_]
  obtain ⟨ops, hops, hop'⟩ := List.mem_flatten.mp hop
  simp only [tailOps, List.mem_cons, List.mem_nil_iff, or_false] at hops
  rcases hb with rfl | rfl <;> rcases hops with rfl | rfl | rfl | rfl | rfl | rfl <;>
    (simp only [hostOps1, hostOps1_1, hostOps1_2, hostOps1_3, hostOps1_4, hostOps1_5, List.mem_cons, List.mem_nil_iff, or_false] at hop'
     rcases hop' with rfl | rfl | rfl | rfl | rfl | rfl | rfl | rfl | rfl | rfl | rfl <;>
      simp only [StableHlo.TRef.unary, StableHlo.TRef.ternary, StableHlo.nullary_writes, StableHlo.unary_writes, StableHlo.binary_writes, StableHlo.ternary_writes, StableHlo.reshape_writes, Finset.mem_singleton] <;>
      exact StableHlo.devRef_ne_of_ne (by decide))

theorem arg_rest (b : Ref sig .tc) (hb : b = main_arg0 ∨ b = main_arg1) : b ∈ Pipeline.restRefs sig spec0 := by
  rcases hb with rfl | rfl <;> decide

/-- THE FRAME with the result named: both arguments end as they began, and the result buffer holds what the host lines after the
    region compute from the exit valuation. -/
theorem frame_value : θ_run defs (onTc (τ := τ) (main (F := F))) ⟨m, fun _ => 0, ρ⟩ (fun r => ∀ c : Dev nD,
      r.2.mem ((c.tc : Thread nD τ).loc main_v28) = StableHlo.after (tailOps (F := F)).flatten (Wx m c) (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v28 (by decide),
     ((h c).2 main_arg0 (arg_rest main_arg0 (.inl rfl))).trans ((tail_arg c _ main_arg0 (.inl rfl)).trans
       ((Wx_other m c main_arg0 (by decide) (by decide)).trans (V0_arg m c main_arg0 (.inl rfl)))),
     ((h c).2 main_arg1 (arg_rest main_arg1 (.inr rfl))).trans ((tail_arg c _ main_arg1 (.inr rfl)).trans
       ((Wx_other m c main_arg1 (by decide) (by decide)).trans (V0_arg m c main_arg1 (.inr rfl))))⟩) (run_main m ρ)

/-- THE FRAME: every weakly fair execution terminates, nothing faults, both arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (frame_value m ρ)

end Cert.Kernel.Hand

end
-- ==== Proof.KIShared.lean ====
/-
  The pairwise-distance kernel's region: what its three control cases' runs share.
  The arrays as the region finds them, @main as the host lines before the region, the region and the
  host lines after it; each input window's block at a grid point; the two conditions of the body
  (first column tile: reset the running maximum and minimum; last column tile: hand them to the
  outputs) in closed form over the 8 x 16 grid; where the two output windows are idle; the staging and
  scratch buffers the body is called on.
-/
import proofs.«167929_j87471303950746_1_alg».proof.Proof.Gen.KernelIdeal.Launch
import proofs.«167929_j87471303950746_1_alg».proof.Proof.Gen.KernelIdeal.Skeleton
import proofs.«167929_j87471303950746_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the eight host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4, hostOps1_5]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The arrays of the region are unscoped buffers. -/
theorem arr_unscoped0 : ∀ w, (Pipeline.arrRef spec0 w).isScoped = false := winFacts₀0.arr_unscoped

/-- The lines after the region touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 arr_unscoped0]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
/-- And they write no array of the region: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  all_goals
    simp only [hostOps1, hostOps1_1, hostOps1_2, hostOps1_3, hostOps1_4, hostOps1_5, List.mem_cons, List.mem_nil_iff, or_false] at hop
    rcases hop with rfl | rfl | rfl | rfl | rfl | rfl | rfl | rfl | rfl | rfl | rfl <;>
    (intro w; fin_cases w <;> simp only [StableHlo.TRef.unary, StableHlo.TRef.ternary, StableHlo.nullary_writes, StableHlo.unary_writes, StableHlo.binary_writes, StableHlo.ternary_writes, StableHlo.reshape_writes, Finset.mem_singleton] <;> exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition of the body: the point is in the first column tile. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second condition of the body: the point is in the last column tile. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last column tile the body stores nothing into output window 6, and the pipeline does not write it back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- On the last column tile it is live. -/
theorem liveAt0_6_C : ∀ t : Fin cfg0.N, cond0_1 (grid0.coords t) → cfg0.idle 6 (grid0.coords t) = false := by decide +kernel
/-- Off the last column tile the body stores nothing into output window 7, and the pipeline does not write it back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- On the last column tile it is live. -/
theorem liveAt0_7_C : ∀ t : Fin cfg0.N, cond0_1 (grid0.coords t) → cfg0.idle 7 (grid0.coords t) = false := by decide +kernel

/-! ## The buffers the body is called on -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- The two scratch buffers: the running maximum and the running minimum of a row tile. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunA.lean ====
/-
  The body's run at the first column tile of a row tile: the running maximum and minimum are reset to -inf and +inf, then updated by this tile; the outputs are not touched.
-/
import proofs.«167929_j87471303950746_1_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the six inputs at their contents, the body runs to the end; it leaves the inputs as they
    were and each buffer it stores into with the listed pieces written. The pieces are what the run finds. -/
noncomputable def kernelRun0_A (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__hardest_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__hardest_kernel_eq_skeleton]; unfold cc0__hardest_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KIRunB.lean ====
/-
  The body's run at a middle column tile: the running maximum and minimum are updated by this tile; the outputs are not touched.
-/
import proofs.«167929_j87471303950746_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the six inputs at their contents, the body runs to the end; it leaves the inputs as they
    were and each buffer it stores into with the listed pieces written. The pieces are what the run finds. -/
noncomputable def kernelRun0_B (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    Σ' (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__hardest_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__hardest_kernel_eq_skeleton]; unfold cc0__hardest_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KIRunC.lean ====
/-
  The body's run at the last column tile: the running maximum and minimum are updated by this tile and then stored into the two outputs.
-/
import proofs.«167929_j87471303950746_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the six inputs at their contents, the body runs to the end; it leaves the inputs as they
    were and each buffer it stores into with the listed pieces written. The pieces are what the run finds. -/
noncomputable def kernelRun0_C (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__hardest_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__hardest_kernel_eq_skeleton]; unfold cc0__hardest_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Hand

end
-- ==== Proof.KIFrame.lean ====
/-
  The region's proof data. After each grid point: what the two scratch buffers (the running maximum of
  the positives' distances and the running minimum of the negatives' over the column tiles seen so far in
  this row tile) and the two output staging buffers hold, by recursion on the point; the invariant that
  carries the scratches from point to point; the body's obligation at every point, by the three cases;
  the array read through two windows held at two half shares.
-/
import proofs.«167929_j87471303950746_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the running-maximum scratch cover it. -/
theorem scover0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x1.size (by sl_kernel_rfl) y

/-- What case A leaves in the running-maximum scratch: its pieces read back. -/
def sout0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case A's pieces for the running-minimum scratch cover it. -/
theorem scover0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What case A leaves in the running-minimum scratch: its pieces read back. -/
def sout0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- Case B's pieces for the running-maximum scratch cover it. -/
theorem scover0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case B leaves in the running-maximum scratch: its pieces read back. -/
def sout0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for the running-minimum scratch cover it. -/
theorem scover0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case B leaves in the running-minimum scratch: its pieces read back. -/
def sout0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for the first output's staging buffer cover it. -/
theorem cover0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case C leaves in the first output's staging buffer: its pieces read back. -/
def out0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for the second output's staging buffer cover it. -/
theorem cover0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case C leaves in the second output's staging buffer: its pieces read back. -/
def out0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for the running-maximum scratch cover it. -/
theorem scover0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in the running-maximum scratch: its pieces read back. -/
def sout0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for the running-minimum scratch cover it. -/
theorem scover0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in the running-minimum scratch: its pieces read back. -/
def sout0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the buffers hold after each point -/

/-- An output's staging buffer at a point that stores nothing into it: a placeholder nothing reads. -/
def idleOut : Vec F S1024x1 .f32 := VO0_6.read (Elt F) (VO0_6.writes (Elt F) VO0_6.junk [])

/-- (first output, second output, maximum scratch, minimum scratch) after a point of each case. -/
def caseA (c : Dev nD) (t : Fin cfg0.N) (h0 : t.val % 16 = 0) (h1 : ¬t.val % 16 = 15) :
    Vec F S1024x1 .f32 × Vec F S1024x1 .f32 × Vec F S1024x1 .f32 × Vec F S1024x1 .f32 :=
  (idleOut, idleOut,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))
def caseB (c : Dev nD) (t : Fin cfg0.N) (h0 : ¬t.val % 16 = 0) (h1 : ¬t.val % 16 = 15) (p0 p1 : Vec F S1024x1 .f32) :
    Vec F S1024x1 .f32 × Vec F S1024x1 .f32 × Vec F S1024x1 .f32 × Vec F S1024x1 .f32 :=
  (idleOut, idleOut,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p0 p1)
def caseC (c : Dev nD) (t : Fin cfg0.N) (h0 : ¬t.val % 16 = 0) (h1 : t.val % 16 = 15) (p0 p1 : Vec F S1024x1 .f32) :
    Vec F S1024x1 .f32 × Vec F S1024x1 .f32 × Vec F S1024x1 .f32 × Vec F S1024x1 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) p0 p1)

/-- THE ACCUMULATION over the points: the case the point is in, a middle or last column tile over what the point before left
    in the two scratches. -/
def outsAt0 (c : Dev nD) : (n : ℕ) → n < cfg0.N → Vec F S1024x1 .f32 × Vec F S1024x1 .f32 × Vec F S1024x1 .f32 × Vec F S1024x1 .f32
  | 0, hn => caseA m c ⟨0, hn⟩ (Nat.zero_mod _) (by show ¬ (0 : ℕ) % 16 = 15; decide)
  | n + 1, hn =>
    if h0 : (n + 1) % 16 = 0 then caseA m c ⟨n + 1, hn⟩ h0 (by show ¬ (n + 1) % 16 = 15; omega)
    else if h1 : (n + 1) % 16 = 15 then
      caseC m c ⟨n + 1, hn⟩ h0 h1 (outsAt0 c n (Nat.lt_of_succ_lt hn)).2.2.1 (outsAt0 c n (Nat.lt_of_succ_lt hn)).2.2.2
    else caseB m c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 16 = 0) (h1 : ¬t.val % 16 = 15) :
    outsAt0 m c t.val t.isLt = caseA m c t h0 h1 := by
  obtain ⟨n, hn⟩ := t
  cases n with
  | zero => rfl
  | succ n => exact (dif_pos h0).trans rfl

theorem outsAt0_B (c : Dev nD) (t : Fin cfg0.N) (h0 : ¬t.val % 16 = 0) (h1 : ¬t.val % 16 = 15) :
    outsAt0 m c t.val t.isLt = caseB m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = caseC m c t h0 h1 (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region's invariant before position `n`: before the first point both scratches at anything; afterwards each at what
    the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

/-- The proof data of the pipeline on core `c`. The array the kernel reads through windows 0 and 1 is held at the two
    halves of the full share, one per window; every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨_ + 8, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the inputs' buffers hold their blocks; the point's position in its row of column tiles says which case
    it is in; the invariant hands the body the two scratches at what the point before left (at anything at the very first point) and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have h1 : ¬t.val % 16 = 15 := by omega
    rw [Dat.leavesExact_idle (dats m 0 c) 6 t (idleAt0_6 t (fun h => h1 ((hcond0_1 t).mp h))) (noFlush0_6 t (fun h => h1 ((hcond0_1 t).mp h)))]
    rw [Dat.leavesExact_idle (dats m 0 c) 7 t (idleAt0_7 t (fun h => h1 ((hcond0_1 t).mp h))) (noFlush0_7 t (fun h => h1 ((hcond0_1 t).mp h)))]
    rw [outsAt0_A m c t h0 h1]
    unfold caseA sout0_A_0 sout0_A_1; (try dsimp only)
    by_cases hz : t.val = 0
    ·
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    ·
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    by_cases h1 : t.val % 16 = 15
    · rw [show (dats m 0 c).leavesExact 6 t = owns (c : Thread nD τ) (ms0_6 t) fullShare ((dats m 0 c).after 6 t) from by
        unfold Dat.leavesExact; rw [liveAt0_6_C t ((hcond0_1 t).mpr h1)], after0_6]
      rw [show (dats m 0 c).leavesExact 7 t = owns (c : Thread nD τ) (ms0_7 t) fullShare ((dats m 0 c).after 7 t) from by
        unfold Dat.leavesExact; rw [liveAt0_7_C t ((hcond0_1 t).mpr h1)], after0_7]
      rw [outsAt0_C m c t h0 h1]
      unfold caseC out0_C_6 out0_C_7 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [Dat.leavesExact_idle (dats m 0 c) 7 t (idleAt0_7 t (fun h => h1 ((hcond0_1 t).mp h))) (noFlush0_7 t (fun h => h1 ((hcond0_1 t).mp h)))]
      rw [outsAt0_B m c t h0 h1]
      unfold caseB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratches' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KILaunch.lean ====
/-
  The launch of the region and the run of @main. The kernel reads one array (the features, rounded) through
  two windows, a row tile and a column tile of it: the array's full share is dealt to the two windows in
  halves at the region's entry and joined again at its exit. The exit valuation is the entry's with the two
  result arrays at what the write-backs left. From the run: the two arguments end as they began.
-/
import proofs.«167929_j87471303950746_1_alg».proof.Proof.KIFrame
import proofs.«167929_j87471303950746_1_alg».proof.Proof.LibSharedArrayLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The buffers after the region: the two results at what the write-backs left, every other buffer as at the entry. -/
def Wx (c : Dev nD) : Valuation τ sig (Elt F) :=
  Function.update (Function.update (V0 m c) (Proc.devRef .tc main_v7_0) ((dats m 0 c).arrAt 6 cfg0.N))
    (Proc.devRef .tc main_v7_1) ((dats m 0 c).arrAt 7 cfg0.N)

theorem Wx_6 (c : Dev nD) : Wx m c (Proc.devRef .tc main_v7_0) = (dats m 0 c).arrAt 6 cfg0.N := by
  unfold Wx
  rw [Function.update_of_ne (StableHlo.devRef_ne_of_ne (by decide)), Function.update_self]

theorem Wx_7 (c : Dev nD) : Wx m c (Proc.devRef .tc main_v7_1) = (dats m 0 c).arrAt 7 cfg0.N := by
  unfold Wx
  rw [Function.update_self]

theorem Wx_other (c : Dev nD) (b : Ref sig .tc) (h6 : b ≠ main_v7_0) (h7 : b ≠ main_v7_1) :
    Wx m c (Proc.devRef .tc b) = V0 m c (Proc.devRef .tc b) := by
  unfold Wx
  rw [Function.update_of_ne (StableHlo.devRef_ne_of_ne h7), Function.update_of_ne (StableHlo.devRef_ne_of_ne h6)]

/-- Off the arrays the exit valuation is the entry's. -/
theorem hWx (c : Dev nD) : ∀ b ∈ Pipeline.restRefs sig spec0, Wx m c (Proc.devRef .tc b) = V0 m c (Proc.devRef .tc b) := by
  intro b hb
  have hni := (Finset.mem_sdiff.mp hb).2
  refine Wx_other m c b (fun h => hni ?_) (fun h => hni ?_)
  · rw [h]; exact Finset.mem_image.mpr ⟨6, Finset.mem_univ _, rfl⟩
  · rw [h]; exact Finset.mem_image.mpr ⟨7, Finset.mem_univ _, rfl⟩

/-- The distinct buffers behind the eight windows' arrays are seven. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0)
        ∗ (((c.tc : Thread nD τ).loc main_v3) ↦{fullShare} W main_v3)
        ∗ (((c.tc : Thread nD τ).loc main_v4) ↦{fullShare} W main_v4)
        ∗ (((c.tc : Thread nD τ).loc main_v5) ↦{fullShare} W main_v5)
        ∗ (((c.tc : Thread nD τ).loc main_v6) ↦{fullShare} W main_v6)
        ∗ (((c.tc : Thread nD τ).loc main_v7_0) ↦{fullShare} W main_v7_0)
        ∗ (((c.tc : Thread nD τ).loc main_v7_1) ↦{fullShare} W main_v7_1)) := by
  unfold Pipeline.arrBufs
  rw [bigSep_eq_bigSepL_of_eq [main_v0, main_v3, main_v4, main_v5, main_v6, main_v7_0, main_v7_1] (by decide) (by decide)]
  rfl

/-- The pipeline's arrays, window by window, each at its share. -/
theorem arrays_eq8 (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0)
        ∗ (((c.tc : Thread nD τ).loc main_v0) ↦{fullShare.right} G 1)
        ∗ (((c.tc : Thread nD τ).loc main_v3) ↦{fullShare} G 2)
        ∗ (((c.tc : Thread nD τ).loc main_v4) ↦{fullShare} G 3)
        ∗ (((c.tc : Thread nD τ).loc main_v5) ↦{fullShare} G 4)
        ∗ (((c.tc : Thread nD τ).loc main_v6) ↦{fullShare} G 5)
        ∗ (((c.tc : Thread nD τ).loc main_v7_0) ↦{fullShare} G 6)
        ∗ (((c.tc : Thread nD τ).loc main_v7_1) ↦{fullShare} G 7)) := by
  unfold Dat.arrays
  rw [bigSep_W0]
  simp only [(arr_whole0 0).set_eq_univ, (arr_whole0 1).set_eq_univ, (arr_whole0 2).set_eq_univ, (arr_whole0 3).set_eq_univ, (arr_whole0 4).set_eq_univ, (arr_whole0 5).set_eq_univ, (arr_whole0 6).set_eq_univ, (arr_whole0 7).set_eq_univ]
  rfl

/-- At the entry: the shared array's full share is split between the two windows on it. -/
theorem hsplit (c : Dev nD) : (Pipeline.arrBufs (Ix := Unit) (Name := ℕ) (U := UR sig nD τ) (Lvl := ℕ) spec0 c (fun b => V0 m c (Proc.devRef .tc b)) : sProp 𝕄)
    ⊢ (dats m 0 c).arrays ((dats m 0 c).arrAt · 0) := by
  rw [arrBufs_eq, arrays_eq8]
  iintro ⟨H0, H3, H4, H5, H6, H70, H71⟩
  ihave H := (pointsTo_share (PosShare.mem_left_op_right fullShare)).1 $$ H0
  icases H with ⟨Hl, Hr⟩
  isplitl [Hl]; · iexact Hl
  isplitl [Hr]; · iexact Hr
  isplitl [H3]; · iexact H3
  isplitl [H4]; · iexact H4
  isplitl [H5]; · iexact H5
  isplitl [H6]; · iexact H6
  isplitl [H70]; · iexact H70
  iexact H71

theorem arrAt_in_N (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- At the exit: the halves join, and each array holds what the exit valuation says. -/
theorem hjoin (c : Dev nD) : ((dats m 0 c).arrays ((dats m 0 c).arrAt · cfg0.N) : sProp 𝕄)
    ⊢ Pipeline.arrBufs (Ix := Unit) (Name := ℕ) (U := UR sig nD τ) (Lvl := ℕ) spec0 c (fun b => Wx m c (Proc.devRef .tc b)) := by
  rw [arrBufs_eq, arrays_eq8]
  rw [arrAt_in_N m c 0 rfl, arrAt_in_N m c 1 rfl, arrAt_in_N m c 2 rfl, arrAt_in_N m c 3 rfl, arrAt_in_N m c 4 rfl, arrAt_in_N m c 5 rfl]
  rw [Wx_6, Wx_7, Wx_other m c main_v0 (by decide) (by decide), Wx_other m c main_v3 (by decide) (by decide), Wx_other m c main_v4 (by decide) (by decide),
    Wx_other m c main_v5 (by decide) (by decide), Wx_other m c main_v6 (by decide) (by decide)]
  iintro ⟨Hl, Hr, H3, H4, H5, H6, H70, H71⟩
  isplitl [Hl Hr]
  · iapply (pointsTo_share (PosShare.mem_left_op_right fullShare)).2
    isplitl [Hl]; · iexact Hl
    iexact Hr
  isplitl [H3]; · iexact H3
  isplitl [H4]; · iexact H4
  isplitl [H5]; · iexact H5
  isplitl [H6]; · iexact H6
  isplitl [H70]; · iexact H70
  iexact H71

/-- And back. -/
theorem hjoin' (c : Dev nD) : (Pipeline.arrBufs (Ix := Unit) (Name := ℕ) (U := UR sig nD τ) (Lvl := ℕ) spec0 c (fun b => Wx m c (Proc.devRef .tc b)) : sProp 𝕄)
    ⊢ (dats m 0 c).arrays ((dats m 0 c).arrAt · cfg0.N) := by
  rw [arrBufs_eq, arrays_eq8]
  rw [arrAt_in_N m c 0 rfl, arrAt_in_N m c 1 rfl, arrAt_in_N m c 2 rfl, arrAt_in_N m c 3 rfl, arrAt_in_N m c 4 rfl, arrAt_in_N m c 5 rfl]
  rw [Wx_6, Wx_7, Wx_other m c main_v0 (by decide) (by decide), Wx_other m c main_v3 (by decide) (by decide), Wx_other m c main_v4 (by decide) (by decide),
    Wx_other m c main_v5 (by decide) (by decide), Wx_other m c main_v6 (by decide) (by decide)]
  iintro ⟨H0, H3, H4, H5, H6, H70, H71⟩
  ihave H := (pointsTo_share (PosShare.mem_left_op_right fullShare)).1 $$ H0
  icases H with ⟨Hl, Hr⟩
  isplitl [Hl]; · iexact Hl
  isplitl [Hr]; · iexact Hr
  isplitl [H3]; · iexact H3
  isplitl [H4]; · iexact H4
  isplitl [H5]; · iexact H5
  isplitl [H6]; · iexact H6
  isplitl [H70]; · iexact H70
  iexact H71

set_option backward.isDefEq.respectTransparency.types false in
/-- Every weakly fair execution of @main terminates, and in every final state each array of the region holds what the
    write-backs left and every other unscoped buffer what the host lines after the region leave from the exit valuation. -/
theorem run_main : θ_run defs (onTc (τ := τ) (main (F := F))) (s₀ m ρ)
    (Pipeline.FramePost cfgs (dats m) 0 (fun c b => StableHlo.after (tailOps (F := F)).flatten (Wx m c) (Proc.devRef .tc b))) :=
  SharedArrayLaunch.θ_run_frame_around_track_shared cfgs (dats m) (0 : Fin 1) defs₀ Variants.none cellOf_inj winFacts₀0 block_pos0 arr_whole0 stage_whole0
    m ρ main (hbody := fun c => (body_obligation m c).loose) (howed := fun _ _ => rfl) (V₀ := V0 m) (Wx := Wx m) (opss := tailOps)
    (hsub := sfx_sub) (hfresh := sfx_fresh) (hkeep := sfx_keeps) (hmain := hmain m Variants.none)
    (hsplit := hsplit m) (hjoin := hjoin m) (hjoin' := hjoin' m) (hWx := hWx m) (hin := hin m) (hout := hout m)

/-- No host line writes an argument of @main. -/
theorem V0_arg (c : Dev nD) (b : Ref sig .tc) (hb : b = main_arg0 ∨ b = main_arg1) :
    V0 m c (Proc.devRef .tc b) = m ((c.tc : Thread nD τ).loc b) := by
  unfold V0
  rw [StableHlo.after_of_forall_not_mem _ _ fun op hop => ?_]
  simp only [List.flatten_cons, List.flatten_nil, List.append_nil, hostOps0, List.mem_cons, List.mem_nil_iff, or_false] at hop
  rcases hb with rfl | rfl <;> rcases hop with rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem tail_arg (c : Dev nD) (W : Valuation τ sig (Elt F)) (b : Ref sig .tc) (hb : b = main_arg0 ∨ b = main_arg1) :
    StableHlo.after (tailOps (F := F)).flatten W (Proc.devRef .tc b) = W (Proc.devRef .tc b) := by
  rw [StableHlo.after_of_forall_not_mem _ _ fun op hop => ?_]
  obtain ⟨ops, hops, hop'⟩ := List.mem_flatten.mp hop
  simp only [tailOps, List.mem_cons, List.mem_nil_iff, or_false] at hops
  rcases hb with rfl | rfl <;> rcases hops with rfl | rfl | rfl | rfl | rfl | rfl <;>
    (simp only [hostOps1, hostOps1_1, hostOps1_2, hostOps1_3, hostOps1_4, hostOps1_5, List.mem_cons, List.mem_nil_iff, or_false] at hop'
     rcases hop' with rfl | rfl | rfl | rfl | rfl | rfl | rfl | rfl | rfl | rfl | rfl <;>
      simp only [StableHlo.TRef.unary, StableHlo.TRef.ternary, StableHlo.nullary_writes, StableHlo.unary_writes, StableHlo.binary_writes, StableHlo.ternary_writes, StableHlo.reshape_writes, Finset.mem_singleton] <;>
      exact StableHlo.devRef_ne_of_ne (by decide))

theorem arg_rest (b : Ref sig .tc) (hb : b = main_arg0 ∨ b = main_arg1) : b ∈ Pipeline.restRefs sig spec0 := by
  rcases hb with rfl | rfl <;> decide

/-- THE FRAME with the result named: both arguments end as they began, and the result buffer holds what the host lines after the
    region compute from the exit valuation. -/
theorem frame_value : θ_run defs (onTc (τ := τ) (main (F := F))) ⟨m, fun _ => 0, ρ⟩ (fun r => ∀ c : Dev nD,
      r.2.mem ((c.tc : Thread nD τ).loc main_v28) = StableHlo.after (tailOps (F := F)).flatten (Wx m c) (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v28 (by decide),
     ((h c).2 main_arg0 (arg_rest main_arg0 (.inl rfl))).trans ((tail_arg c _ main_arg0 (.inl rfl)).trans
       ((Wx_other m c main_arg0 (by decide) (by decide)).trans (V0_arg m c main_arg0 (.inl rfl)))),
     ((h c).2 main_arg1 (arg_rest main_arg1 (.inr rfl))).trans ((tail_arg c _ main_arg1 (.inr rfl)).trans
       ((Wx_other m c main_arg1 (by decide) (by decide)).trans (V0_arg m c main_arg1 (.inr rfl))))⟩) (run_main m ρ)

/-- THE FRAME: every weakly fair execution terminates, nothing faults, both arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (frame_value m ρ)

end Cert.KernelIdeal.Hand

end
-- ==== Proof.Spec.lean ====
/-
  The batch-hard triplet loss over 8192 rows of 128 features, index by index on the extended reals.

  For rows r, c: sq r is the sum of squares of row r, dot r c the inner product of rows r and c,
  sqd r c = max (sq r + sq c - 2 * dot r c) 0 the clamped squared distance, and dist r c its square
  root where it exceeds the threshold (0 elsewhere). A pair (r, c) is positive when the labels agree and
  r ≠ c, negative when the labels differ. hp r is the largest distance over the positives of r (-inf if
  none), hn r the smallest over the negatives (+inf if none). A row is valid when it has a positive and a
  negative; the loss is the mean over the valid rows of max (hp r - hn r + margin) 0, and 0 when no row is
  valid. The validity of a row enters as a parameter: one program decides it by asking whether hp r
  is above -inf and hn r below +inf, the other by asking whether a positive and a negative exist.
-/
import Idealize.ShloMosaic.PureOps.Ideal
import Idealize.ShloMosaic.Lib.ValueIdx

noncomputable section

namespace Triplet

open Idealize.ShloMosaic Idealize.ShloMosaic.ValueIdx

abbrev SX : Shape := ⟨2, ![8192, 128]⟩
abbrev SL : Shape := ⟨1, ![8192]⟩
abbrev S0 : Shape := ⟨0, ![]⟩

/-- The float words both programs use. -/
def zero : EReal := Ideal.ofBits .f32 0x00000000#32
def one : EReal := Ideal.ofBits .f32 0x3F800000#32
def two : EReal := Ideal.ofBits .f32 0x40000000#32
def eps : EReal := Ideal.ofBits .f32 0x2B8CBCCC#32
def margin : EReal := Ideal.ofBits .f32 0x3E99999A#32
def ninf : EReal := Ideal.ofBits .f32 0xFF800000#32
def pinf : EReal := Ideal.ofBits .f32 0x7F800000#32

section
variable (x : FVec Ideal SX .f32) (lab : IVec SL 32)

/-- The squared norm of row r. -/
def sq (r : Fin 8192) : EReal := zero + ∑ k : Fin 128, x (ix2 r k) * x (ix2 r k)
/-- The inner product of rows r and c. -/
def dot (r c : Fin 8192) : EReal := ∑ k : Fin 128, x (ix2 r k) * x (ix2 c k)
/-- The squared distance of rows r and c, clamped at 0. -/
def sqd (r c : Fin 8192) : EReal := max ((sq x r + sq x c) - two * dot x r c) zero
/-- The distance: the square root where the squared distance exceeds the threshold, else 0. -/
def dist (r c : Fin 8192) : EReal :=
  Scalar.select (Ideal.cmp .ogt (sqd x r c) eps) (Ideal.sqrt (Scalar.select (Ideal.cmp .ogt (sqd x r c) eps) (sqd x r c) one)) zero
/-- The labels of r and c agree. -/
def same (r c : Fin 8192) : BitVec 1 := IntOp.cmpi .eq (lab (ix1 r)) (lab (ix1 c))
/-- r and c are one row. -/
def eye (r c : Fin 8192) : BitVec 1 := IntOp.cmpi .eq (BitVec.ofNat 32 r.val) (BitVec.ofNat 32 c.val)
/-- (r, c) is a positive pair. -/
def posm (r c : Fin 8192) : BitVec 1 := IntOp.andi (same lab r c) (~~~ eye r c)
/-- (r, c) is a negative pair. -/
def negm (r c : Fin 8192) : BitVec 1 := ~~~ same lab r c
/-- The distance on the positives of r, -inf elsewhere; and on the negatives, +inf elsewhere. -/
def posv (r c : Fin 8192) : EReal := Scalar.select (posm lab r c) (dist x r c) ninf
def negv (r c : Fin 8192) : EReal := Scalar.select (negm lab r c) (dist x r c) pinf
/-- The hardest positive and the hardest negative of row r. -/
def hp (r : Fin 8192) : EReal := Finset.univ.sup fun c : Fin 8192 => posv x lab r c
def hn (r : Fin 8192) : EReal := Finset.univ.inf fun c : Fin 8192 => negv x lab r c

/-- Validity decided from the masks: some positive and some negative exist. -/
def anyPos (r : Fin 8192) : BitVec 1 := if ∃ c : Fin 8192, posm lab r c = 1#1 then 1#1 else 0#1
def anyNeg (r : Fin 8192) : BitVec 1 := if ∃ c : Fin 8192, negm lab r c = 1#1 then 1#1 else 0#1
def validR (r : Fin 8192) : BitVec 1 := IntOp.andi (anyPos lab r) (anyNeg lab r)

end

section
variable (p n : Fin 8192 → EReal) (valid : Fin 8192 → BitVec 1)

/-- Validity decided from two vectors of extremes: the first above -inf and the second below +inf. -/
def validOf (r : Fin 8192) : BitVec 1 := IntOp.andi (Ideal.cmp .ogt (p r) ninf) (Ideal.cmp .olt (n r) pinf)
/-- The hinge of a row, 0 on an invalid row. -/
def perRow (r : Fin 8192) : EReal :=
  Scalar.select (valid r) (max (Scalar.select (valid r) (p r - n r) zero + margin) zero) zero
/-- How many rows are valid. -/
def cnt : EReal := zero + ∑ r : Fin 8192, FloatOps.uitofp (F := Ideal) .f32 (valid r)
/-- The loss from the two vectors of extremes and the validity of each row. -/
def lossOf : EReal :=
  Scalar.select (Ideal.cmp .ogt (cnt valid) zero) (Ideal.div (zero + ∑ r : Fin 8192, perRow p n valid r) (max (cnt valid) one)) zero

end

end Triplet

end
-- ==== Proof.KITail.lean ====
/-
  The lines after the pairwise-distance region, read as the loss.

  The region leaves two column vectors over the 8192 rows: the hardest positive distance hp r and the hardest negative
  distance hn r of each row. The lines after it view both as vectors, call a row valid when hp r is above -inf and hn r
  below +inf, take the hinge max (hp r - hn r + margin) 0 on the valid rows and 0 elsewhere, count the valid rows, and
  return the sum of the hinges over the count (clamped below at one) when the count exceeds zero, and 0 otherwise.
  Stretch by stretch, each intermediate vector is named at a row index; the two sums over the vector's indices are sums
  over the rows; composed in order, the scalar result is the specification's loss of the two vectors with that validity.
-/
import proofs.«167929_j87471303950746_1_alg».proof.Proof.KIShared
import proofs.«167929_j87471303950746_1_alg».proof.Proof.Spec
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

set_option maxRecDepth 16384

noncomputable section

namespace Cert.KernelIdeal.Tail

open Cert.KernelIdeal Cert.KernelIdeal.Gen
open Idealize.ShloMosaic Idealize.ShloMosaic.TcCoe
open Idealize.SL.Sem
open Idealize.ShloMosaic.ValueIdx
open scoped BigOperators

/-! ## Two readings at an index -/

/-- A column vector `[a, 1]` viewed as `[a]` reads, at `i`, the column's entry `(i, 0)`: both have row-major position `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  Idealize.ShloMosaic.shapeCast_apply x h _ _ (by
    rw [Shape.rowMajor_val_two, Shape.rowMajor_val_one]
    show i.val * 1 + 0 = i.val
    rw [Nat.mul_one, Nat.add_zero])

/-- A sum over the indices of a vector is the sum over its coordinate. -/
theorem sum_idx1 {M : Type} [AddCommMonoid M] {n : ℕ} (f : (⟨1, ![n]⟩ : Shape).Idx → M) :
    ∑ i, f i = ∑ r : Fin n, f (ix1 r) :=
  (Equiv.sum_comp (idxEquiv1 (n := n)).symm f).symm

variable (X : Valuation τ sig (Elt Ideal))

/-- The region's two results, the hardest positive and the hardest negative of each row, as vectors over the rows. -/
abbrev hpv : Fin 8192 → EReal := fun r => (X (Proc.devRef .tc main_v7_0) : S8192x1.Idx → EReal) (ix2 r 0)
abbrev hnv : Fin 8192 → EReal := fun r => (X (Proc.devRef .tc main_v7_1) : S8192x1.Idx → EReal) (ix2 r 0)

/-! ## The first stretch: the validity of each row, the difference of the extremes, a zero -/

/-- Row `r` is valid when its hardest positive is above -inf and its hardest negative below +inf. -/
theorem s1_valid : (StableHlo.after (hostOps1 (F := Ideal)) X (Proc.devRef .tc main_v14) : S8192.Idx → BitVec 1)
    = fun i => Triplet.validOf (hpv X) (hnv X) (i 0) := by
  after_results
  funext i
  obtain ⟨r, rfl⟩ : ∃ r, i = ix1 r := ⟨i 0, eq_ix1 i⟩
  show IntOp.andi
      (Ideal.cmp .ogt (shapeCast S8192 (X (Proc.devRef .tc main_v7_0) : S8192x1.Idx → EReal) shapeCasts_S8192x1_S8192 (ix1 r)) Triplet.ninf)
      (Ideal.cmp .olt (shapeCast S8192 (X (Proc.devRef .tc main_v7_1) : S8192x1.Idx → EReal) shapeCasts_S8192x1_S8192 (ix1 r)) Triplet.pinf) = _
  rw [shapeCast_a1_a_apply, shapeCast_a1_a_apply]
  rfl

/-- The difference of the two extremes of each row. -/
theorem s1_diff : (StableHlo.after (hostOps1 (F := Ideal)) X (Proc.devRef .tc main_v15) : S8192.Idx → EReal)
    = fun i => hpv X (i 0) - hnv X (i 0) := by
  after_results
  funext i
  obtain ⟨r, rfl⟩ : ∃ r, i = ix1 r := ⟨i 0, eq_ix1 i⟩
  show shapeCast (α := EReal) S8192 (X (Proc.devRef .tc main_v7_0)) shapeCasts_S8192x1_S8192 (ix1 r)
      - shapeCast (α := EReal) S8192 (X (Proc.devRef .tc main_v7_1)) shapeCasts_S8192x1_S8192 (ix1 r) = _
  rw [shapeCast_a1_a_apply, shapeCast_a1_a_apply]
  rfl

/-- The zero the first `where` falls back to. -/
theorem s1_zero : (StableHlo.after (hostOps1 (F := Ideal)) X (Proc.devRef .tc main_cst_2) : S_.Idx → EReal)
    = fun _ => Triplet.zero := by
  after_results
  rfl

/-! ## The first `where`: the difference on the valid rows, zero elsewhere -/

section
variable (v : Fin 8192 → BitVec 1) (d : Fin 8192 → EReal)

theorem s2_diff (h14 : (X (Proc.devRef .tc main_v14) : S8192.Idx → BitVec 1) = fun i => v (i 0))
    (h15 : (X (Proc.devRef .tc main_v15) : S8192.Idx → EReal) = fun i => d (i 0))
    (hc : (X (Proc.devRef .tc main_cst_2) : S_.Idx → EReal) = fun _ => Triplet.zero) :
    (StableHlo.after (hostOps1_1 (F := Ideal)) X (Proc.devRef .tc main_v16) : S8192.Idx → EReal)
      = fun i => Scalar.select (v (i 0)) (d (i 0)) Triplet.zero := by
  after_results
  funext i
  show Scalar.select ((X (Proc.devRef .tc main_v14) : S8192.Idx → BitVec 1) i) ((X (Proc.devRef .tc main_v15) : S8192.Idx → EReal) i)
      ((X (Proc.devRef .tc main_cst_2) : S_.Idx → EReal) _) = _
  rw [h14, h15, hc]

/-- The validity vector is not written by it. -/
theorem s2_valid : StableHlo.after (hostOps1_1 (F := Ideal)) X (Proc.devRef .tc main_v14) = X (Proc.devRef .tc main_v14) := by
  after_results

end

/-! ## The hinge: the margin added, clamped at zero -/

section
variable (e : Fin 8192 → EReal)

theorem s3_hinge (h16 : (X (Proc.devRef .tc main_v16) : S8192.Idx → EReal) = fun i => e (i 0)) :
    (StableHlo.after (hostOps1_2 (F := Ideal)) X (Proc.devRef .tc main_v20) : S8192.Idx → EReal)
      = fun i => max (e (i 0) + Triplet.margin) Triplet.zero := by
  after_results
  funext i
  rw [h16, maximumf_apply, addf_apply]
  rfl

/-- The zero the second `where` falls back to. -/
theorem s3_zero : (StableHlo.after (hostOps1_2 (F := Ideal)) X (Proc.devRef .tc main_cst_5) : S_.Idx → EReal)
    = fun _ => Triplet.zero := by
  after_results
  rfl

/-- The validity vector is not written by it. -/
theorem s3_valid : StableHlo.after (hostOps1_2 (F := Ideal)) X (Proc.devRef .tc main_v14) = X (Proc.devRef .tc main_v14) := by
  after_results

end

/-! ## The second `where`: the hinge on the valid rows, zero elsewhere -/

section
variable (v : Fin 8192 → BitVec 1) (g : Fin 8192 → EReal)

theorem s4_row (h14 : (X (Proc.devRef .tc main_v14) : S8192.Idx → BitVec 1) = fun i => v (i 0))
    (h20 : (X (Proc.devRef .tc main_v20) : S8192.Idx → EReal) = fun i => g (i 0))
    (hc : (X (Proc.devRef .tc main_cst_5) : S_.Idx → EReal) = fun _ => Triplet.zero) :
    (StableHlo.after (hostOps1_3 (F := Ideal)) X (Proc.devRef .tc main_v21) : S8192.Idx → EReal)
      = fun i => Scalar.select (v (i 0)) (g (i 0)) Triplet.zero := by
  after_results
  funext i
  show Scalar.select ((X (Proc.devRef .tc main_v14) : S8192.Idx → BitVec 1) i) ((X (Proc.devRef .tc main_v20) : S8192.Idx → EReal) i)
      ((X (Proc.devRef .tc main_cst_5) : S_.Idx → EReal) _) = _
  rw [h14, h20, hc]

/-- The validity vector is not written by it. -/
theorem s4_valid : StableHlo.after (hostOps1_3 (F := Ideal)) X (Proc.devRef .tc main_v14) = X (Proc.devRef .tc main_v14) := by
  after_results

end

/-! ## The two sums: the count of the valid rows, and the mean's quotient -/

section
variable (v : Fin 8192 → BitVec 1) (q : Fin 8192 → EReal)

/-- The sum of a vector over all its indices, from an initial value, is that value plus the sum over the rows. -/
theorem total (x : S8192.Idx → EReal) (c : S_.Idx → EReal) (j : S_.Idx) :
    Host.reduceAdd (F := Ideal) (φ := .f32) x c reducesTo_S8192_S_d0 h_S_ j = c ix0 + ∑ r : Fin 8192, x (ix1 r) := by
  rw [hostReduceAdd_apply, Ideal.hostReduceAdd_total reducesTo_S8192_S_d0 (fun b => b.elim0), sum_idx1, eq_ix0 (Shape.Idx.first h_S_)]

/-- Some row is valid: the count exceeds zero. -/
theorem s5_any (h14 : (X (Proc.devRef .tc main_v14) : S8192.Idx → BitVec 1) = fun i => v (i 0)) :
    (StableHlo.after (hostOps1_4 (F := Ideal)) X (Proc.devRef .tc main_v24) : S_.Idx → BitVec 1)
      = fun _ => Ideal.cmp .ogt (Triplet.cnt v) Triplet.zero := by
  after_results
  funext j
  rw [h14, cmpf_apply, Ideal.cmpf_def, total]
  rfl

/-- The sum of the rows' hinges over the count, the count clamped below at one. -/
theorem s5_mean (h14 : (X (Proc.devRef .tc main_v14) : S8192.Idx → BitVec 1) = fun i => v (i 0))
    (h21 : (X (Proc.devRef .tc main_v21) : S8192.Idx → EReal) = fun i => q (i 0)) :
    (StableHlo.after (hostOps1_4 (F := Ideal)) X (Proc.devRef .tc main_v27) : S_.Idx → EReal)
      = fun _ => Ideal.div (Triplet.zero + ∑ r : Fin 8192, q r) (max (Triplet.cnt v) Triplet.one) := by
  after_results
  funext j
  rw [h14, h21, hostDivf_apply, maximumf_apply, total, total]
  rfl

/-- The zero the last `where` falls back to. -/
theorem s5_zero : (StableHlo.after (hostOps1_4 (F := Ideal)) X (Proc.devRef .tc main_cst_10) : S_.Idx → EReal)
    = fun _ => Triplet.zero := by
  after_results
  rfl

end

/-! ## The last `where`: the mean when some row is valid, zero otherwise -/

section
variable (c : BitVec 1) (a : EReal)

theorem s6_loss (h24 : (X (Proc.devRef .tc main_v24) : S_.Idx → BitVec 1) = fun _ => c)
    (h27 : (X (Proc.devRef .tc main_v27) : S_.Idx → EReal) = fun _ => a)
    (hc : (X (Proc.devRef .tc main_cst_10) : S_.Idx → EReal) = fun _ => Triplet.zero) :
    (StableHlo.after (hostOps1_5 (F := Ideal)) X (Proc.devRef .tc main_v28) : S_.Idx → EReal)
      = fun _ => Scalar.select c a Triplet.zero := by
  after_results
  funext j
  show Scalar.select ((X (Proc.devRef .tc main_v24) : S_.Idx → BitVec 1) j) ((X (Proc.devRef .tc main_v27) : S_.Idx → EReal) j)
      ((X (Proc.devRef .tc main_cst_10) : S_.Idx → EReal) j) = _
  rw [h24, h27, hc]

end

/-! ## The six stretches in order -/

/-- The lines after the region compute the loss from the region's two vectors of extremes, a row valid when its hardest
    positive is above -inf and its hardest negative below +inf. -/
theorem tail_value (W : Valuation τ sig (Elt Ideal)) :
    StableHlo.after (Cert.KernelIdeal.Hand.tailOps (F := Ideal)).flatten W (Proc.devRef .tc main_v28)
      = fun _ => Triplet.lossOf (fun r => W (Proc.devRef .tc main_v7_0) (ValueIdx.ix2 r 0)) (fun r => W (Proc.devRef .tc main_v7_1) (ValueIdx.ix2 r 0))
          (Triplet.validOf (fun r => W (Proc.devRef .tc main_v7_0) (ValueIdx.ix2 r 0)) (fun r => W (Proc.devRef .tc main_v7_1) (ValueIdx.ix2 r 0))) := by
  show StableHlo.after (hostOps1 ++ (hostOps1_1 ++ (hostOps1_2 ++ (hostOps1_3 ++ (hostOps1_4 ++ (hostOps1_5 ++ [])))))) W _ = _
  rw [List.append_nil, StableHlo.after_append, StableHlo.after_append, StableHlo.after_append, StableHlo.after_append,
    StableHlo.after_append]
  -- the rows' validity, carried through the stretches that do not write it
  have v1 := s1_valid W
  have v2 := (s2_valid (StableHlo.after hostOps1 W)).trans v1
  have v3 := (s3_valid (StableHlo.after hostOps1_1 (StableHlo.after hostOps1 W))).trans v2
  have v4 := (s4_valid (StableHlo.after hostOps1_2 (StableHlo.after hostOps1_1 (StableHlo.after hostOps1 W)))).trans v3
  -- the difference, its `where`, the hinge, its `where`
  have e2 := s2_diff (StableHlo.after hostOps1 W) (Triplet.validOf (hpv W) (hnv W)) (fun r => hpv W r - hnv W r) v1 (s1_diff W) (s1_zero W)
  have g3 := s3_hinge (StableHlo.after hostOps1_1 (StableHlo.after hostOps1 W))
    (fun r => Scalar.select (Triplet.validOf (hpv W) (hnv W) r) (hpv W r - hnv W r) Triplet.zero) e2
  have q4 := s4_row (StableHlo.after hostOps1_2 (StableHlo.after hostOps1_1 (StableHlo.after hostOps1 W)))
    (Triplet.validOf (hpv W) (hnv W))
    (fun r => max (Scalar.select (Triplet.validOf (hpv W) (hnv W) r) (hpv W r - hnv W r) Triplet.zero + Triplet.margin) Triplet.zero)
    v3 g3 (s3_zero _)
  exact s6_loss _ _ _ (s5_any _ (Triplet.validOf (hpv W) (hnv W)) v4)
    (s5_mean _ (Triplet.validOf (hpv W) (hnv W)) (Triplet.perRow (hpv W) (hnv W) (Triplet.validOf (hpv W) (hnv W))) v4 q4) (s5_zero _)

end Cert.KernelIdeal.Tail

end
-- ==== Proof.KIEntry.lean ====
/-
  The arrays the region finds, on the extended reals: the rounded features are the features; the two squared-norm arrays hold
  each row's sum of squares, as a column and as a row; the two label arrays hold the labels, as a column and as a row.
-/
import proofs.«167929_j87471303950746_1_alg».proof.Proof.KIShared
import proofs.«167929_j87471303950746_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem

open Cert.KernelIdeal.Hand

variable (m : (ℓ : Loc nD τ sig) → Buf (Elt Ideal) ℓ)

/-- The squared-norm vector before it is laid out as a column or a row: the float sum over the feature axis of the
    elementwise square, started from the zero word, is the row's sum of squares. -/
theorem sqvec_apply (x : FVec Ideal S8192x128 .f32) (r : Fin 8192) :
    (Host.reduceAdd (mulf x x) (constant (F := Ideal) S_ .f32 0x00000000#32) reducesTo_S8192x128_S8192_d1 h_S_ : FVec Ideal S8192 .f32) (ix1 r)
      = Triplet.sq x r := by
  simp only [Host.reduceAdd, Ideal.hostReduceAdd_def]
  rw [Ideal.hostReduceAdd_single reducesTo_S8192x128_S8192_d1 (by decide)]
  unfold Triplet.sq Triplet.zero
  refine congrArg₂ (· + ·) rfl (Finset.sum_congr rfl fun k _ => ?_)
  rw [mulf_apply]
  -- the index the sum inserts at feature k of row r is (r, k)
  have hi : ∀ (h : Shape.Reduces S8192x128 [1] S8192), h.lift (ix1 r) k = ix2 r k := fun h =>
    funext fun a => Fin.ext (by match a with | ⟨0, _⟩ => rfl | ⟨1, _⟩ => rfl)
  rw [hi]
  rfl

/-- Rounding to the narrower format is the identity on the extended reals. -/
theorem V_v0 (c : Dev nD) (j : S8192x128.Idx) :
    (V m c main_v0 : S8192x128.Idx → EReal) j = (m ((c.tc : Thread nD τ).loc main_arg0) : S8192x128.Idx → EReal) j := by
  have e : (V m c main_v0 : S8192x128.Idx → EReal)
      = (truncf .bf16 (m ((c.tc : Thread nD τ).loc main_arg0) : FVec Ideal S8192x128 .f32) bitsLt_bf16_f32 : FVec Ideal S8192x128 .bf16) := by
    dsimp only [V, V0]
    simp only [hostOps0, List.flatten_cons, List.flatten_nil, List.append_nil]
    after_results
  rw [e]; rfl

/-- The column of squared norms: the squared-norm vector with a unit axis behind, read at (r, 0). -/
theorem V_v3 (c : Dev nD) (r : Fin 8192) :
    (V m c main_v3 : S8192x1.Idx → EReal) (ix2 r 0) = Triplet.sq (m ((c.tc : Thread nD τ).loc main_arg0)) r := by
  have e : (V m c main_v3 : S8192x1.Idx → EReal)
      = broadcastInDim S8192x1 ![0] bcast_S8192_S8192x1_0
          (Host.reduceAdd (mulf (m ((c.tc : Thread nD τ).loc main_arg0) : FVec Ideal S8192x128 .f32) (m ((c.tc : Thread nD τ).loc main_arg0)))
            (constant (F := Ideal) S_ .f32 0x00000000#32) reducesTo_S8192x128_S8192_d1 h_S_ : FVec Ideal S8192 .f32) := by
    dsimp only [V, V0]
    simp only [hostOps0, List.flatten_cons, List.flatten_nil, List.append_nil]
    after_results
  rw [e]
  refine (broadcastInDim_apply _ bcast_S8192_S8192x1_0 _ (ix2 r 0) (ix1 r) (fun a => match a with
    | ⟨0, _⟩ => by show r.val = if (8192 : Nat) = 1 then 0 else r.val; rw [if_neg (by decide)])).trans ?_
  exact sqvec_apply _ r

/-- The row of squared norms: the column reshaped; (0, q) and (q, 0) have the same row-major position q. -/
theorem V_v4 (c : Dev nD) (q : Fin 8192) :
    (V m c main_v4 : S1x8192.Idx → EReal) (ix2 0 q) = Triplet.sq (m ((c.tc : Thread nD τ).loc main_arg0)) q := by
  have e : (V m c main_v4 : S1x8192.Idx → EReal)
      = shapeCast S1x8192 (V m c main_v3 : S8192x1.Idx → EReal) shapeCasts_S8192x1_S1x8192 := by
    dsimp only [V, V0]
    simp only [hostOps0, List.flatten_cons, List.flatten_nil, List.append_nil]
    after_results
    rfl
  rw [e]
  refine (shapeCast_apply _ _ (ix2 0 q) (ix2 q 0) ?_).trans (V_v3 m c q)
  show (S8192x1.rowMajor (ix2 q 0)).val = (S1x8192.rowMajor (ix2 0 q)).val
  rw [Shape.rowMajor_val_two, Shape.rowMajor_val_two]
  show q.val * 1 + 0 = 0 * 8192 + q.val
  omega

/-- The column of labels: the label vector reshaped; (r, 0) and (r) have the same row-major position r. -/
theorem V_v5 (c : Dev nD) (r : Fin 8192) :
    (V m c main_v5 : S8192x1.Idx → BitVec 32) (ix2 r 0) = (m ((c.tc : Thread nD τ).loc main_arg1) : S8192.Idx → BitVec 32) (ix1 r) := by
  have e : (V m c main_v5 : S8192x1.Idx → BitVec 32)
      = shapeCast S8192x1 (m ((c.tc : Thread nD τ).loc main_arg1) : S8192.Idx → BitVec 32) shapeCasts_S8192_S8192x1 := by
    dsimp only [V, V0]
    simp only [hostOps0, List.flatten_cons, List.flatten_nil, List.append_nil]
    after_results
    rfl
  rw [e]
  refine shapeCast_apply _ _ _ _ ?_
  show (S8192.rowMajor (ix1 r)).val = (S8192x1.rowMajor (ix2 r 0)).val
  rw [Shape.rowMajor_val_two, Shape.rowMajor_val_one]
  show r.val = r.val * 1 + 0
  omega

/-- The row of labels: the label vector reshaped; (0, q) and (q) have the same row-major position q. -/
theorem V_v6 (c : Dev nD) (q : Fin 8192) :
    (V m c main_v6 : S1x8192.Idx → BitVec 32) (ix2 0 q) = (m ((c.tc : Thread nD τ).loc main_arg1) : S8192.Idx → BitVec 32) (ix1 q) := by
  have e : (V m c main_v6 : S1x8192.Idx → BitVec 32)
      = shapeCast S1x8192 (m ((c.tc : Thread nD τ).loc main_arg1) : S8192.Idx → BitVec 32) shapeCasts_S8192_S1x8192 := by
    dsimp only [V, V0]
    simp only [hostOps0, List.flatten_cons, List.flatten_nil, List.append_nil]
    after_results
    rfl
  rw [e]
  refine shapeCast_apply _ _ _ _ ?_
  show (S8192.rowMajor (ix1 q)).val = (S1x8192.rowMajor (ix2 0 q)).val
  rw [Shape.rowMajor_val_two, Shape.rowMajor_val_one]
  show q.val = 0 * 8192 + q.val
  omega

end Cert.KernelIdeal.Entry

end
-- ==== Proof.SpecK.lean ====
/-
  The distance of two rows from their squared norms and their inner product, and the two masks from the
  labels and the positions: the forms a tile of the pairwise computation meets.
-/
import proofs.«167929_j87471303950746_1_alg».proof.Proof.Spec

noncomputable section

namespace Triplet

open Idealize.ShloMosaic Idealize.ShloMosaic.ValueIdx

/-- The distance from the two squared norms `a`, `b` and the inner product `d`. -/
def distOf (a b d : EReal) : EReal :=
  Scalar.select (Ideal.cmp .ogt (max ((a + b) - two * d) zero) eps)
    (Ideal.sqrt (Scalar.select (Ideal.cmp .ogt (max ((a + b) - two * d) zero) eps) (max ((a + b) - two * d) zero) one)) zero

theorem dist_eq (x : FVec Ideal SX .f32) (r c : Fin 8192) : dist x r c = distOf (sq x r) (sq x c) (dot x r c) := rfl

/-- A positive pair, from the two labels and the two positions as words. -/
def posmOf (lr lc ri ci : BitVec 32) : BitVec 1 := IntOp.andi (IntOp.cmpi .eq lr lc) (IntOp.xori (IntOp.cmpi .eq ri ci) 1#1)
/-- A negative pair, from the two labels. -/
def negmOf (lr lc : BitVec 32) : BitVec 1 := IntOp.xori (IntOp.cmpi .eq lr lc) 1#1

end Triplet

end
-- ==== Proof.Math.lean ====
/-
  Validity of a row read two ways, on finite inputs.

  When every entry of x is a real number, every distance dist x r c is a real number: sums and products of
  reals are reals, the clamped squared distance is a real that is at least 0, and the square root of such
  a real is a real. So each distance lies strictly between -inf and +inf. The largest distance over the
  positives of r (-inf where there is none) is therefore above -inf exactly when r has a positive, and the
  smallest over the negatives (+inf where there is none) is below +inf exactly when r has a negative.

  The precondition states that |x i| < +inf at every index; on the extended reals this says x i is a real.
-/
import proofs.«167929_j87471303950746_1_alg».proof.Proof.Spec
import proofs.«167929_j87471303950746_1_alg».proof.Pre_finite_inputs
import Idealize.ShloMosaic.Lib.ReduceAll
import Idealize.ShloMosaic.PureOps.Ideal.Laws
import Mathlib.Data.EReal.Operations
import Mathlib.Data.Finset.Lattice.Fold

noncomputable section

namespace Triplet

open Idealize.ShloMosaic Idealize.ShloMosaic.ValueIdx

namespace Math

/-! ### The float words -/

theorem zero_eq : zero = 0 := by simp [zero, Ideal.ofBits, Ideal.ieee]

theorem ninf_eq : ninf = ⊥ := by simp [ninf, Ideal.ofBits, Ideal.ieee]

theorem pinf_eq : pinf = ⊤ := by simp [pinf, Ideal.ofBits, Ideal.ieee]

theorem two_real : ∃ v : ℝ, two = (v : EReal) := by
  refine ⟨2, ?_⟩
  simp [two, Ideal.ofBits, Ideal.ieee, -EReal.coe_mul]; norm_num

/-! ### Reals are closed under the operations of the distance -/

/-- The larger of two reals, taken on the extended reals, is the larger real. -/
theorem coe_max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A finite sum of reals is a real. -/
theorem sum_real {ι : Type} (s : Finset ι) (f : ι → EReal) (h : ∀ i, ∃ v : ℝ, f i = (v : EReal)) :
    ∃ v : ℝ, ∑ i ∈ s, f i = (v : EReal) := by
  classical
  induction s using Finset.induction_on with
  | empty => exact ⟨0, by simp⟩
  | insert a s ha ih =>
    obtain ⟨v, hv⟩ := ih
    obtain ⟨w, hw⟩ := h a
    exact ⟨w + v, by rw [Finset.sum_insert ha, hv, hw, EReal.coe_add]⟩

section
variable (x : FVec Ideal SX .f32) (lab : IVec SL 32) (hfin : ∀ i, ∃ v : ℝ, x i = (v : EReal))
include hfin

theorem mul_real (i j : SX.Idx) : ∃ v : ℝ, x i * x j = (v : EReal) := by
  obtain ⟨a, ha⟩ := hfin i
  obtain ⟨b, hb⟩ := hfin j
  exact ⟨a * b, by rw [ha, hb, EReal.coe_mul]⟩

theorem sq_real (r : Fin 8192) : ∃ v : ℝ, sq x r = (v : EReal) := by
  obtain ⟨v, hv⟩ := sum_real Finset.univ (fun k : Fin 128 => x (ix2 r k) * x (ix2 r k)) (fun k => mul_real x hfin _ _)
  exact ⟨v, by rw [sq, zero_eq, zero_add, hv]⟩

theorem dot_real (r c : Fin 8192) : ∃ v : ℝ, dot x r c = (v : EReal) := by
  obtain ⟨v, hv⟩ := sum_real Finset.univ (fun k : Fin 128 => x (ix2 r k) * x (ix2 c k)) (fun k => mul_real x hfin _ _)
  exact ⟨v, by rw [dot, hv]⟩

/-- The clamped squared distance is a real that is at least 0. -/
theorem sqd_real (r c : Fin 8192) : ∃ v : ℝ, 0 ≤ v ∧ sqd x r c = (v : EReal) := by
  obtain ⟨a, ha⟩ := sq_real x hfin r
  obtain ⟨b, hb⟩ := sq_real x hfin c
  obtain ⟨d, hd⟩ := dot_real x hfin r c
  obtain ⟨t, ht⟩ := two_real
  refine ⟨max ((a + b) - t * d) 0, le_max_right _ _, ?_⟩
  rw [sqd, ha, hb, hd, ht, zero_eq, ← EReal.coe_add, ← EReal.coe_mul, ← EReal.coe_sub, ← EReal.coe_zero, coe_max_coe]

/-- The distance is a real. -/
theorem dist_real (r c : Fin 8192) : ∃ v : ℝ, dist x r c = (v : EReal) := by
  obtain ⟨v, hv0, hv⟩ := sqd_real x hfin r c
  unfold dist Scalar.select
  by_cases hc : Ideal.cmp .ogt (sqd x r c) eps = 1
  · rw [if_pos hc, if_pos hc, hv, Ideal.sqrt_coe, if_neg (not_lt.2 hv0)]
    exact ⟨_, rfl⟩
  · rw [if_neg hc, zero_eq]
    exact ⟨0, rfl⟩

theorem bot_lt_dist (r c : Fin 8192) : (⊥ : EReal) < dist x r c := by
  obtain ⟨v, hv⟩ := dist_real x hfin r c
  rw [hv]; exact EReal.bot_lt_coe v

theorem dist_lt_top (r c : Fin 8192) : dist x r c < (⊤ : EReal) := by
  obtain ⟨v, hv⟩ := dist_real x hfin r c
  rw [hv]; exact EReal.coe_lt_top v

/-! ### The two extremes against the infinities -/

/-- The largest distance over the positives of r is above -inf exactly when r has a positive. -/
theorem ninf_lt_hp (r : Fin 8192) : ninf < hp x lab r ↔ ∃ c : Fin 8192, posm lab r c = 1#1 := by
  rw [ninf_eq, hp, Finset.lt_sup_iff]
  constructor
  · rintro ⟨c, -, hc⟩
    refine ⟨c, ?_⟩
    by_contra hne
    have hne' : ¬ posm lab r c = 1 := hne
    rw [posv, Scalar.select, if_neg hne', ninf_eq] at hc
    exact lt_irrefl _ hc
  · rintro ⟨c, hc⟩
    refine ⟨c, Finset.mem_univ c, ?_⟩
    have hc' : posm lab r c = 1 := hc
    rw [posv, Scalar.select, if_pos hc']
    exact bot_lt_dist x hfin r c

/-- The smallest distance over the negatives of r is below +inf exactly when r has a negative. -/
theorem hn_lt_pinf (r : Fin 8192) : hn x lab r < pinf ↔ ∃ c : Fin 8192, negm lab r c = 1#1 := by
  rw [pinf_eq, hn, Finset.inf_lt_iff]
  constructor
  · rintro ⟨c, -, hc⟩
    refine ⟨c, ?_⟩
    by_contra hne
    have hne' : ¬ negm lab r c = 1 := hne
    rw [negv, Scalar.select, if_neg hne', pinf_eq] at hc
    exact lt_irrefl _ hc
  · rintro ⟨c, hc⟩
    refine ⟨c, Finset.mem_univ c, ?_⟩
    have hc' : negm lab r c = 1 := hc
    rw [negv, Scalar.select, if_pos hc']
    exact dist_lt_top x hfin r c

theorem cmp_hp (r : Fin 8192) : Ideal.cmp .ogt (hp x lab r) ninf = anyPos lab r := by
  show BitVec.ofBool (decide (ninf < hp x lab r)) = anyPos lab r
  unfold anyPos
  by_cases h : ∃ c : Fin 8192, posm lab r c = 1#1
  · rw [if_pos h, decide_eq_true ((ninf_lt_hp x lab hfin r).2 h)]; rfl
  · rw [if_neg h, decide_eq_false (mt (ninf_lt_hp x lab hfin r).1 h)]; rfl

theorem cmp_hn (r : Fin 8192) : Ideal.cmp .olt (hn x lab r) pinf = anyNeg lab r := by
  show BitVec.ofBool (decide (hn x lab r < pinf)) = anyNeg lab r
  unfold anyNeg
  by_cases h : ∃ c : Fin 8192, negm lab r c = 1#1
  · rw [if_pos h, decide_eq_true ((hn_lt_pinf x lab hfin r).2 h)]; rfl
  · rw [if_neg h, decide_eq_false (mt (hn_lt_pinf x lab hfin r).1 h)]; rfl

end

/-- An extended real whose absolute value is below +inf is a real. -/
theorem real_of_abs_lt_top (a : EReal) (h : max a (-a) < ⊤) : ∃ v : ℝ, a = (v : EReal) := by
  induction a using EReal.rec with
  | bot => exact absurd h (by simp)
  | coe v => exact ⟨v, rfl⟩
  | top => exact absurd h (by simp)

end Math

/-- On finite inputs, asking whether the hardest positive is above -inf and the hardest negative below +inf
    decides the same rows valid as asking whether a positive and a negative exist. -/
theorem validOf_eq_validR (x : FVec Ideal SX .f32) (lab : IVec SL 32) (hfin : ∀ i, ∃ v : ℝ, x i = (v : EReal)) :
    validOf (hp x lab) (hn x lab) = validR lab := by
  funext r
  rw [validOf, validR, Math.cmp_hp x lab hfin r, Math.cmp_hn x lab hfin r]

/-! ### The precondition read back -/

/-- The precondition holds only of inputs whose every entry is a real. -/
theorem finite_of_pre [Cert.Pre_finite_inputs.Facts] (x : FVec Ideal SX .f32) (lab : IVec SL 32)
    (h : Cert.Pre_finite_inputs.fn (F := Ideal) x lab = fun _ => 1#1) : ∀ i, ∃ v : ℝ, x i = (v : EReal) := by
  intro i
  haveI : Subsingleton Cert.Pre_finite_inputs.S_.Idx := ⟨fun a b => funext fun d => d.elim0⟩
  have h0 := congrFun h ix0
  dsimp only [Cert.Pre_finite_inputs.fn] at h0
  have h1 := Host.reduce_andi_all _ _ _ _ _ h0 i
  rw [cmpf_apply, Ideal.cmpf_def] at h1
  have h2 : max (x i) (-(x i)) < (⊤ : EReal) := by
    have h3 : Ideal.cmp .olt (max (x i) (-(x i))) ⊤ = 1#1 := by
      rw [← h1, ← Math.pinf_eq]; rfl
    by_contra hn
    have : Ideal.cmp .olt (max (x i) (-(x i))) ⊤ = 0#1 := by
      show BitVec.ofBool (decide (max (x i) (-(x i)) < ⊤)) = 0#1
      rw [decide_eq_false hn]; rfl
    rw [this] at h3
    exact absurd h3 (by decide)
  exact Math.real_of_abs_lt_top _ h2

end Triplet

end
-- ==== Proof.KIPay.lean ====
/-
  The kernel body's arithmetic read at an index, on the extended reals: the distance tile entry by entry from a row
  tile and a column tile of the features and their squared norms; the global row and column positions of a tile's
  entries; the running maximum over the positives and the running minimum over the negatives after one more column tile.
-/
import proofs.«167929_j87471303950746_1_alg».proof.Proof.Gen.KernelIdeal.Skeleton
import proofs.«167929_j87471303950746_1_alg».proof.Proof.SpecK
import proofs.«167929_j87471303950746_1_alg».proof.Proof.Math
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Lattice.Fold

set_option maxRecDepth 16384

noncomputable section

namespace Cert.KernelIdeal.Pay

open Cert.KernelIdeal Cert.KernelIdeal.Gen
open Idealize.ShloMosaic Idealize.ShloMosaic.TcCoe Idealize.ShloMosaic.ValueIdx Idealize.SL.Sem

/-! ### Layout operations of the tile read at an entry -/

/-- A column of 1024 entries spread over 512 columns reads, at (p, q), the column at p. -/
theorem bcast_col {α : Type} (v : S1024x1.Idx → α) (h : S1024x1.Broadcasts S1024x512) (p : Fin 1024) (q : Fin 512) :
    broadcastTo S1024x512 v h (ix2 p q) = v (ix2 p 0) := by
  refine broadcastTo_apply v h (ix2 p q) (ix2 p 0) fun ax => ?_
  match ax with
  | ⟨0, _⟩ => rfl
  | ⟨1, _⟩ => rfl

/-- A row of 512 entries spread over 1024 rows reads, at (p, q), the row at q. -/
theorem bcast_row {α : Type} (v : S1x512.Idx → α) (h : S1x512.Broadcasts S1024x512) (p : Fin 1024) (q : Fin 512) :
    broadcastTo S1024x512 v h (ix2 p q) = v (ix2 0 q) :=
  broadcastTo_1b_ab_apply v h p q

/-- A vector of 1024 entries viewed as a column reads, at (p, 0), the vector at p. -/
theorem cast_col {α : Type} (v : S1024.Idx → α) (h : S1024.ShapeCasts S1024x1) (p : Fin 1024) :
    shapeCast S1024x1 v h (ix2 p 0) = v (ix1 p) :=
  shapeCast_apply v h _ _ (by
    rw [Shape.rowMajor_val_two, Shape.rowMajor_val_one]
    show p.val = p.val * 1 + 0
    omega)

/-! ### The reset values -/

/-- The reset values: -inf for the maximum, +inf for the minimum. -/
theorem pay4_apply (j : S1024x1.Idx) : k0_pay4 (F := Ideal) j = Triplet.ninf := by
  unfold k0_pay4
  exact congrFun (shapeCast_self _ _) j
theorem pay5_apply (j : S1024x1.Idx) : k0_pay5 (F := Ideal) j = Triplet.pinf := by
  unfold k0_pay5
  exact congrFun (shapeCast_self _ _) j

/-! ### The positions of a tile's entries -/

/-- The global row position of a tile entry, as a word. -/
theorem pay7_apply (i : grid0.Coords) (p : Fin 1024) (q : Fin 512) :
    k0_pay7 i (ix2 p q) = BitVec.ofNat 32 ((i 0).val * 1024 + p.val) := by
  unfold k0_pay7
  show BitVec.ofNat 32 (i 0).val * BitVec.ofNat 32 1024 + iota .tc S1024x512 32 [0] iota_S1024x512_d0_w32 (ix2 p q) = _
  rw [iota_single_apply, BitVec.ofNat_add, BitVec.ofNat_mul]

/-- The global column position of a tile entry, as a word. -/
theorem pay8_apply (i : grid0.Coords) (p : Fin 1024) (q : Fin 512) :
    k0_pay8 i (ix2 p q) = BitVec.ofNat 32 ((i 1).val * 512 + q.val) := by
  unfold k0_pay8
  show BitVec.ofNat 32 (i 1).val * BitVec.ofNat 32 512 + iota .tc S1024x512 32 [1] iota_S1024x512_d1_w32 (ix2 p q) = _
  rw [iota_single_apply, BitVec.ofNat_add, BitVec.ofNat_mul]

/-! ### The product of a row tile and a transposed column tile -/

theorem lhs_k0_v8_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_k0_v8_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_k0_v8_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_k0_v8_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The product into the zero tile, at (p, q): the sum over the 128 features of the left factor's row p times the right
    factor's column q. -/
theorem matmul_k0_apply (lhs : FVec Ideal S1024x128 .bf16) (rhs : FVec Ideal S128x512 .bf16) (p : Fin 1024) (q : Fin 512) :
    matmul dot_S1024x128_S128x512_S1024x512_1_0_0_1_n_n none lhs rhs (constant (F := Ideal) S1024x512 .f32 0x00000000#32) (ix2 p q)
      = ∑ k : Fin 128, lhs (ix2 p k) * rhs (ix2 k q) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p q) ((contrEquiv1 dot_S1024x128_S128x512_S1024x512_1_0_0_1_n_n 128 rfl rfl).symm k) = ix2 p k := funext fun a => Fin.ext (by
    match a with
    | ⟨0, _⟩ => exact lhs_k0_v8_0 _ _
    | ⟨1, _⟩ => exact (lhs_k0_v8_1 _ _).trans hk)
  have er : dot_S1024x128_S128x512_S1024x512_1_0_0_1_n_n.rhsIdx (ix2 p q) ((contrEquiv1 dot_S1024x128_S128x512_S1024x512_1_0_0_1_n_n 128 rfl rfl).symm k) = ix2 k q := funext fun a => Fin.ext (by
    match a with
    | ⟨0, _⟩ => exact (rhs_k0_v8_0 _ _).trans hk
    | ⟨1, _⟩ => exact rhs_k0_v8_1 _ _)
  rw [el, er]

/-! ### The distance tile -/

/-- An entry of the distance tile: from the row's and the column's squared norms and the inner product of the two feature rows. -/
theorem pay6_apply (x0 : Vec Ideal S1024x128 .bf16) (x1 : Vec Ideal S512x128 .bf16) (x2 : Vec Ideal S1024x1 .f32) (x3 : Vec Ideal S1x512 .f32)
    (p : Fin 1024) (q : Fin 512) :
    k0_pay6 (F := Ideal) x0 x1 x2 x3 (ix2 p q)
      = Triplet.distOf (x2 (ix2 p 0)) (x3 (ix2 0 q)) (∑ k : Fin 128, x0 (ix2 p k) * x1 (ix2 q k)) := by
  have ha : broadcastTo S1024x512 (shapeCast S1024x1 x2 shapeCasts_S1024x1_S1024x1) broadcasts_S1024x1_S1024x512 (ix2 p q) = x2 (ix2 p 0) := by
    rw [bcast_col, shapeCast_self]
  have hb : broadcastTo S1024x512 (shapeCast S1x512 x3 shapeCasts_S1x512_S1x512) broadcasts_S1x512_S1024x512 (ix2 p q) = x3 (ix2 0 q) := by
    rw [bcast_row, shapeCast_self]
  have hd : matmul (φ₁ := .bf16) (φ₂ := .bf16) dot_S1024x128_S128x512_S1024x512_1_0_0_1_n_n none (shapeCast S1024x128 x0 shapeCasts_S1024x128_S1024x128)
        (transpose S128x512 [1, 0] (shapeCast S512x128 x1 shapeCasts_S512x128_S512x128) transposes_S512x128_p1_0_S128x512)
        (constant (F := Ideal) S1024x512 .f32 0x00000000#32) (ix2 p q)
      = ∑ k : Fin 128, x0 (ix2 p k) * x1 (ix2 q k) := by
    rw [matmul_k0_apply, shapeCast_self, shapeCast_self]
    refine Finset.sum_congr rfl fun k _ => ?_
    rw [transpose_ix2_apply]
  unfold k0_pay6
  show Triplet.distOf
      (broadcastTo S1024x512 (shapeCast S1024x1 x2 shapeCasts_S1024x1_S1024x1) broadcasts_S1024x1_S1024x512 (ix2 p q))
      (broadcastTo S1024x512 (shapeCast S1x512 x3 shapeCasts_S1x512_S1x512) broadcasts_S1x512_S1024x512 (ix2 p q))
      (matmul (φ₁ := .bf16) (φ₂ := .bf16) dot_S1024x128_S128x512_S1024x512_1_0_0_1_n_n none (shapeCast S1024x128 x0 shapeCasts_S1024x128_S1024x128)
        (transpose S128x512 [1, 0] (shapeCast S512x128 x1 shapeCasts_S512x128_S512x128) transposes_S512x128_p1_0_S128x512)
        (constant (F := Ideal) S1024x512 .f32 0x00000000#32) (ix2 p q)) = _
  rw [ha, hb, hd]

/-! ### The label mask -/

/-- The labels of row p and column q agree. -/
theorem pay1_apply (l4 : Vec Ideal S1024x1 .i32) (l5 : Vec Ideal S1x512 .i32) (p : Fin 1024) (q : Fin 512) :
    k0_pay1 (F := Ideal) l4 l5 (ix2 p q) = IntOp.cmpi .eq (l4 (ix2 p 0)) (l5 (ix2 0 q)) := by
  unfold k0_pay1
  show IntOp.cmpi .eq (broadcastTo S1024x512 (shapeCast S1024x1 l4 shapeCasts_S1024x1_S1024x1) broadcasts_S1024x1_S1024x512 (ix2 p q))
      (broadcastTo S1024x512 (shapeCast S1x512 l5 shapeCasts_S1x512_S1x512) broadcasts_S1x512_S1024x512 (ix2 p q)) = _
  rw [bcast_col, bcast_row, shapeCast_self, shapeCast_self]

/-! ### The largest and the smallest entry of a row of the tile -/

/-- The entry of the tile over row p with column k. -/
theorem lift_row (h : S1024x512.Reduces [1] S1024) (p : Fin 1024) (k : Fin 512) : h.lift (ix1 p) k = ix2 p k :=
  funext fun c => Fin.ext (by
    match c with
    | ⟨0, _⟩ => rfl
    | ⟨1, _⟩ => rfl)

/-- A minimum over one axis: the fold of min from the starting value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum along the columns from -inf, at row p: the supremum of the row's entries. -/
theorem rowmax_apply (src : FVec Ideal S1024x512 .f32) (h : S1024x512.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = Finset.univ.sup fun q : Fin 512 => src (ix2 p q) := by
  refine (Ideal.multiReduction_maximumf_single src _ h hφ hacc (ix1 p)).trans ?_
  have e : (src ∘ h.lift (ix1 p)) = fun q : Fin 512 => src (ix2 p q) := funext fun k => congrArg src (lift_row h p k)
  rw [e]
  show Finset.univ.fold max Triplet.ninf (fun q : Fin 512 => src (ix2 p q)) = _
  rw [Triplet.Math.ninf_eq]
  rfl

/-- The minimum along the columns from +inf, at row p: the infimum of the row's entries. -/
theorem rowmin_apply (src : FVec Ideal S1024x512 .f32) (h : S1024x512.Reduces [1] S1024) (hφ : FKind.Formats .f32)
    (hacc : (0x7F800000#32 : BitVec 32) = FKind.minimumf.neutral .f32 hφ) (p : Fin 1024) :
    multiReduction (F := Ideal) .minimumf [1] S1024 src 0x7F800000#32 h hφ hacc (ix1 p)
      = Finset.univ.inf fun q : Fin 512 => src (ix2 p q) := by
  refine (multiReduction_minimumf_single src _ h hφ hacc (ix1 p)).trans ?_
  have e : (src ∘ h.lift (ix1 p)) = fun q : Fin 512 => src (ix2 p q) := funext fun k => congrArg src (lift_row h p k)
  rw [e]
  show Finset.univ.fold min Triplet.pinf (fun q : Fin 512 => src (ix2 p q)) = _
  rw [Triplet.Math.pinf_eq]
  rfl

/-! ### The running extremes after one more column tile -/

/-- The running maximum after a column tile: the previous one against the largest distance over the tile's positives. -/
theorem pay2_apply (d : FVec Ideal S1024x512 .f32) (ri ci : IVec S1024x512 32) (l4 : Vec Ideal S1024x1 .i32) (l5 : Vec Ideal S1x512 .i32)
    (prev : Vec Ideal S1024x1 .f32) (p : Fin 1024) :
    k0_pay2 (F := Ideal) d ri ci l4 l5 prev (ix2 p 0)
      = max (prev (ix2 p 0)) (Finset.univ.sup fun q : Fin 512 =>
          Scalar.select (Triplet.posmOf (l4 (ix2 p 0)) (l5 (ix2 0 q)) (ri (ix2 p q)) (ci (ix2 p q))) (d (ix2 p q)) Triplet.ninf) := by
  unfold k0_pay2
  refine (congrFun (shapeCast_self _ _) (ix2 p 0)).trans ?_
  refine congrArg (max (prev (ix2 p 0))) ?_
  refine (cast_col _ _ p).trans ?_
  refine (rowmax_apply _ _ _ _ p).trans ?_
  refine congrArg (Finset.sup Finset.univ) (funext fun q => ?_)
  show Scalar.select (IntOp.andi (k0_pay1 (F := Ideal) l4 l5 (ix2 p q)) (IntOp.xori (IntOp.cmpi .eq (ri (ix2 p q)) (ci (ix2 p q))) 1#1))
      (d (ix2 p q)) Triplet.ninf = _
  rw [pay1_apply]
  rfl

/-- The running minimum after a column tile: the previous one against the smallest distance over the tile's negatives. -/
theorem pay3_apply (d : FVec Ideal S1024x512 .f32) (l4 : Vec Ideal S1024x1 .i32) (l5 : Vec Ideal S1x512 .i32)
    (prev : Vec Ideal S1024x1 .f32) (p : Fin 1024) :
    k0_pay3 (F := Ideal) d l4 l5 prev (ix2 p 0)
      = min (prev (ix2 p 0)) (Finset.univ.inf fun q : Fin 512 =>
          Scalar.select (Triplet.negmOf (l4 (ix2 p 0)) (l5 (ix2 0 q))) (d (ix2 p q)) Triplet.pinf) := by
  unfold k0_pay3
  refine (congrFun (shapeCast_self _ _) (ix2 p 0)).trans ?_
  refine congrArg (min (prev (ix2 p 0))) ?_
  refine (cast_col _ _ p).trans ?_
  refine (rowmin_apply _ _ _ _ p).trans ?_
  refine congrArg (Finset.inf Finset.univ) (funext fun q => ?_)
  show Scalar.select (IntOp.xori (k0_pay1 (F := Ideal) l4 l5 (ix2 p q)) 1#1) (d (ix2 p q)) Triplet.pinf = _
  rw [pay1_apply]
  rfl

end Cert.KernelIdeal.Pay

end
-- ==== Proof.KIPieces.lean ====
/-
  What each case of the body leaves in the scratches and the outputs, as the body's arithmetic: the running maximum
  (minimum) is the update by this column tile of the reset value at a first column tile, of what the point before left elsewhere;
  at a last column tile the outputs receive the updated scratches.
-/
import proofs.«167929_j87471303950746_1_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every whole-buffer load and store of the body are zero. -/
private theorem offsets_zero : (![0, 0] : Fin 2 → Nat) = fun _ => 0 := funext fun a => by fin_cases a <;> rfl

theorem sout0_A_0_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay2 (k0_pay6 x0 x1 x2 x3) (k0_pay7 i) (k0_pay8 i) x4 x5 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) offsets_zero, View.readCov_unit_zero (S := S1024x1) _ offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
theorem sout0_A_1_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay3 (k0_pay6 x0 x1 x2 x3) x4 x5 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) offsets_zero, View.readCov_unit_zero (S := S1024x1) _ offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
theorem sout0_B_0_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay6 x0 x1 x2 x3) (k0_pay7 i) (k0_pay8 i) x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S1024x1) offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
theorem sout0_B_1_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay6 x0 x1 x2 x3) x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S1024x1) offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
theorem sout0_C_0_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay6 x0 x1 x2 x3) (k0_pay7 i) (k0_pay8 i) x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1024x1) offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
theorem sout0_C_1_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay6 x0 x1 x2 x3) x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1024x1) offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
theorem out0_C_6_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay6 x0 x1 x2 x3) (k0_pay7 i) (k0_pay8 i) x4 x5 xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1024x1) offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
  rw [View.readCov_unit_zero (S := S1024x1) _ offsets_zero]
theorem out0_C_7_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .bf16) (x1 : Vec F S512x128 .bf16) (x2 : Vec F S1024x1 .f32) (x3 : Vec F S1x512 .f32) (x4 : Vec F S1024x1 .i32) (x5 : Vec F S1x512 .i32) (xs0 xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay6 x0 x1 x2 x3) x4 x5 xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1024x1) offsets_zero]
  simp only [View.readAt_eq_ld, harg2.read_unread, harg3.read_unread, harg4.read_unread, harg5.read_unread, harg6.read_unread, harg7.read_unread, harg10.read_unread, harg11.read_unread, View.ld_unit_zero (S := S1024x1) offsets_zero, View.ld_unit_zero (S := S1x512) offsets_zero, View.ld_unit_zero (S := S1024x128) offsets_zero, View.ld_unit_zero (S := S512x128) offsets_zero]
  rw [View.readCov_unit_zero (S := S1024x1) _ offsets_zero]

end Cert.KernelIdeal.Hand

end
-- ==== Proof.KIBlocks.lean ====
/-
  The pairwise-distance region's blocks read at an index. Point t of the 8 x 16 grid works on row tile t / 16 and
  column tile t % 16: the row tile's features, squared norms and labels are rows t / 16 * 1024 + p of the arrays the
  region finds, the column tile's are rows (columns) t % 16 * 512 + q. With those reads, one entry of a tile's masked
  distances is the specification's value at the global row and column, so a tile's update of the running maximum
  (minimum) is the larger (smaller) of the previous value and the supremum (infimum) of the specification's values over
  the tile's 512 columns.
-/
import proofs.«167929_j87471303950746_1_alg».proof.Proof.KIFrame
import proofs.«167929_j87471303950746_1_alg».proof.Proof.KIEntry
import proofs.«167929_j87471303950746_1_alg».proof.Proof.SpecK
import Idealize.ShloMosaic.Lib.Pipeline.Value
import Idealize.ShloMosaic.Lib.ValueIdx
import proofs.«167929_j87471303950746_1_alg».proof.Proof.KIPay
import proofs.«167929_j87471303950746_1_alg».proof.Proof.KIPieces
import proofs.«167929_j87471303950746_1_alg».proof.Proof.Math

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The index maps and the grid's coordinates, decided over the grid -/

/-- The printed index maps over the 8 x 16 grid: the row tile's windows sit at block (t / 16, 0), the column tile's
    feature window at block (t % 16, 0), the column tile's two row vectors at block (0, t % 16). -/
theorem idx_facts : ∀ t : Fin cfg0.N,
    (win0_0.index t (0 : Fin 2) = t.val / 16 ∧ win0_0.index t (1 : Fin 2) = 0)
    ∧ (win0_1.index t (0 : Fin 2) = t.val % 16 ∧ win0_1.index t (1 : Fin 2) = 0)
    ∧ (win0_2.index t (0 : Fin 2) = t.val / 16 ∧ win0_2.index t (1 : Fin 2) = 0)
    ∧ (win0_3.index t (0 : Fin 2) = 0 ∧ win0_3.index t (1 : Fin 2) = t.val % 16)
    ∧ (win0_4.index t (0 : Fin 2) = t.val / 16 ∧ win0_4.index t (1 : Fin 2) = 0)
    ∧ (win0_5.index t (0 : Fin 2) = 0 ∧ win0_5.index t (1 : Fin 2) = t.val % 16)
    ∧ (win0_6.index t (0 : Fin 2) = t.val / 16 ∧ win0_6.index t (1 : Fin 2) = 0)
    ∧ (win0_7.index t (0 : Fin 2) = t.val / 16 ∧ win0_7.index t (1 : Fin 2) = 0) :=
  (by decide +kernel : ∀ t : Fin grid0.N, _)

/-- Point t has coordinates (t / 16, t % 16). -/
theorem coords_facts : ∀ t : Fin cfg0.N,
    ((grid0.coords t) 0).val = t.val / 16 ∧ ((grid0.coords t) 1).val = t.val % 16 :=
  (by decide +kernel : ∀ t : Fin grid0.N, _)

theorem tN (t : Fin cfg0.N) : t.val < 128 := lt_of_lt_of_eq t.isLt (show cfg0.N = 128 from N_0)

/-- The global row of the p-th row of point t's row tile, and the global column of the q-th column of its column tile. -/
def rowOf (t : Fin cfg0.N) (p : Fin 1024) : Fin 8192 := ⟨t.val / 16 * 1024 + p.val, by have := tN t; omega⟩
def colOf (t : Fin cfg0.N) (q : Fin 512) : Fin 8192 := ⟨t.val % 16 * 512 + q.val, by omega⟩

theorem rowOf_val (t : Fin cfg0.N) (p : Fin 1024) : (rowOf t p).val = t.val / 16 * 1024 + p.val := rfl
theorem colOf_val (t : Fin cfg0.N) (q : Fin 512) : (colOf t q).val = t.val % 16 * 512 + q.val := rfl

/-! ## The input blocks by their literal types, and read at an index -/

abbrev xrow (c : Dev nD) (t : Fin cfg0.N) : Vec Ideal S1024x128 .bf16 := iblk m c 0 t
abbrev xcol (c : Dev nD) (t : Fin cfg0.N) : Vec Ideal S512x128 .bf16 := iblk m c 1 t
abbrev sqrow (c : Dev nD) (t : Fin cfg0.N) : Vec Ideal S1024x1 .f32 := iblk m c 2 t
abbrev sqcol (c : Dev nD) (t : Fin cfg0.N) : Vec Ideal S1x512 .f32 := iblk m c 3 t
abbrev labrow (c : Dev nD) (t : Fin cfg0.N) : Vec Ideal S1024x1 .i32 := iblk m c 4 t
abbrev labcol (c : Dev nD) (t : Fin cfg0.N) : Vec Ideal S1x512 .i32 := iblk m c 5 t

/-- The features and the labels as the region's arguments hold them. -/
abbrev feat (c : Dev nD) : FVec Ideal Triplet.SX .f32 := m ((c.tc : Thread nD τ).loc main_arg0)
abbrev labs (c : Dev nD) : IVec Triplet.SL 32 := m ((c.tc : Thread nD τ).loc main_arg1)

/-- The row tile's features are rows t / 16 * 1024 + p of the features. -/
theorem xrow_apply (c : Dev nD) (t : Fin cfg0.N) (p : Fin 1024) (k : Fin 128) :
    xrow m c t (ix2 p k) = feat m c (ix2 (rowOf t p) k) := by
  unfold xrow iblk
  rw [View.read_apply]
  show (V m c main_v0 : S8192x128.Idx → EReal) _ = _
  refine Eq.trans ?_ (Entry.V_v0 m c (ix2 (rowOf t p) k))
  congr 1
  funext a; apply Fin.ext
  match a with
  | ⟨0, _⟩ => show win0_0.index t (0 : Fin 2) * 1024 + 1 * p.val = (rowOf t p).val; rw [(idx_facts t).1.1, rowOf_val]; omega
  | ⟨1, _⟩ => show win0_0.index t (1 : Fin 2) * 128 + 1 * k.val = k.val; rw [(idx_facts t).1.2]; omega

/-- The column tile's features are rows t % 16 * 512 + q of the features. -/
theorem xcol_apply (c : Dev nD) (t : Fin cfg0.N) (q : Fin 512) (k : Fin 128) :
    xcol m c t (ix2 q k) = feat m c (ix2 (colOf t q) k) := by
  unfold xcol iblk
  rw [View.read_apply]
  show (V m c main_v0 : S8192x128.Idx → EReal) _ = _
  refine Eq.trans ?_ (Entry.V_v0 m c (ix2 (colOf t q) k))
  congr 1
  funext a; apply Fin.ext
  match a with
  | ⟨0, _⟩ => show win0_1.index t (0 : Fin 2) * 512 + 1 * q.val = (colOf t q).val; rw [(idx_facts t).2.1.1, colOf_val]; omega
  | ⟨1, _⟩ => show win0_1.index t (1 : Fin 2) * 128 + 1 * k.val = k.val; rw [(idx_facts t).2.1.2]; omega

/-- The row tile's squared norms. -/
theorem sqrow_apply (c : Dev nD) (t : Fin cfg0.N) (p : Fin 1024) :
    sqrow m c t (ix2 p 0) = Triplet.sq (feat m c) (rowOf t p) := by
  unfold sqrow iblk
  rw [View.read_apply]
  show (V m c main_v3 : S8192x1.Idx → EReal) _ = _
  rw [← Entry.V_v3 m c (rowOf t p)]
  congr 1
  funext a; apply Fin.ext
  match a with
  | ⟨0, _⟩ => show win0_2.index t (0 : Fin 2) * 1024 + 1 * p.val = (rowOf t p).val; rw [(idx_facts t).2.2.1.1, rowOf_val]; omega
  | ⟨1, _⟩ => show win0_2.index t (1 : Fin 2) * 1 + 1 * 0 = 0; rw [(idx_facts t).2.2.1.2]

/-- The column tile's squared norms. -/
theorem sqcol_apply (c : Dev nD) (t : Fin cfg0.N) (q : Fin 512) :
    sqcol m c t (ix2 0 q) = Triplet.sq (feat m c) (colOf t q) := by
  unfold sqcol iblk
  rw [View.read_apply]
  show (V m c main_v4 : S1x8192.Idx → EReal) _ = _
  rw [← Entry.V_v4 m c (colOf t q)]
  congr 1
  funext a; apply Fin.ext
  match a with
  | ⟨0, _⟩ => show win0_3.index t (0 : Fin 2) * 1 + 1 * 0 = 0; rw [(idx_facts t).2.2.2.1.1]
  | ⟨1, _⟩ => show win0_3.index t (1 : Fin 2) * 512 + 1 * q.val = (colOf t q).val; rw [(idx_facts t).2.2.2.1.2, colOf_val]; omega

/-- The row tile's labels. -/
theorem labrow_apply (c : Dev nD) (t : Fin cfg0.N) (p : Fin 1024) :
    labrow m c t (ix2 p 0) = labs m c (ix1 (rowOf t p)) := by
  unfold labrow iblk
  rw [View.read_apply]
  show (V m c main_v5 : S8192x1.Idx → BitVec 32) _ = _
  refine Eq.trans ?_ (Entry.V_v5 m c (rowOf t p))
  congr 1
  funext a; apply Fin.ext
  match a with
  | ⟨0, _⟩ => show win0_4.index t (0 : Fin 2) * 1024 + 1 * p.val = (rowOf t p).val; rw [(idx_facts t).2.2.2.2.1.1, rowOf_val]; omega
  | ⟨1, _⟩ => show win0_4.index t (1 : Fin 2) * 1 + 1 * 0 = 0; rw [(idx_facts t).2.2.2.2.1.2]

/-- The column tile's labels. -/
theorem labcol_apply (c : Dev nD) (t : Fin cfg0.N) (q : Fin 512) :
    labcol m c t (ix2 0 q) = labs m c (ix1 (colOf t q)) := by
  unfold labcol iblk
  rw [View.read_apply]
  show (V m c main_v6 : S1x8192.Idx → BitVec 32) _ = _
  refine Eq.trans ?_ (Entry.V_v6 m c (colOf t q))
  congr 1
  funext a; apply Fin.ext
  match a with
  | ⟨0, _⟩ => show win0_5.index t (0 : Fin 2) * 1 + 1 * 0 = 0; rw [(idx_facts t).2.2.2.2.2.1.1]
  | ⟨1, _⟩ => show win0_5.index t (1 : Fin 2) * 512 + 1 * q.val = (colOf t q).val; rw [(idx_facts t).2.2.2.2.2.1.2, colOf_val]; omega

/-! ## The tile's masks and distance are the specification's -/

theorem xor_one (b : BitVec 1) : IntOp.xori b 1#1 = ~~~ b := by
  revert b; decide

/-- The positive mask a tile computes from labels and positions is the specification's. -/
theorem posmOf_eq (L : IVec Triplet.SL 32) (r c' : Fin 8192) :
    Triplet.posmOf (L (ix1 r)) (L (ix1 c')) (BitVec.ofNat 32 r.val) (BitVec.ofNat 32 c'.val) = Triplet.posm L r c' := by
  unfold Triplet.posmOf Triplet.posm Triplet.same Triplet.eye
  rw [xor_one]

/-- The negative mask likewise. -/
theorem negmOf_eq (L : IVec Triplet.SL 32) (r c' : Fin 8192) :
    Triplet.negmOf (L (ix1 r)) (L (ix1 c')) = Triplet.negm L r c' := by
  unfold Triplet.negmOf Triplet.negm Triplet.same
  rw [xor_one]

/-- One entry of a tile's masked distances, for the maximum: the specification's value at the global row and column. -/
theorem tile_pos_entry (c : Dev nD) (t : Fin cfg0.N) (p : Fin 1024) (q : Fin 512) :
    Scalar.select (Triplet.posmOf (labrow m c t (ix2 p 0)) (labcol m c t (ix2 0 q))
        (k0_pay7 (grid0.coords t) (ix2 p q)) (k0_pay8 (grid0.coords t) (ix2 p q)))
      (k0_pay6 (F := Ideal) (xrow m c t) (xcol m c t) (sqrow m c t) (sqcol m c t) (ix2 p q)) Triplet.ninf
      = Triplet.posv (feat m c) (labs m c) (rowOf t p) (colOf t q) := by
  rw [Pay.pay6_apply, Pay.pay7_apply, Pay.pay8_apply, labrow_apply, labcol_apply, sqrow_apply, sqcol_apply]
  rw [(coords_facts t).1, (coords_facts t).2, ← rowOf_val t p, ← colOf_val t q, posmOf_eq]
  unfold Triplet.posv
  rw [Triplet.dist_eq]
  unfold Triplet.dot
  simp only [xrow_apply, xcol_apply]

/-- One entry of a tile's masked distances, for the minimum. -/
theorem tile_neg_entry (c : Dev nD) (t : Fin cfg0.N) (p : Fin 1024) (q : Fin 512) :
    Scalar.select (Triplet.negmOf (labrow m c t (ix2 p 0)) (labcol m c t (ix2 0 q)))
      (k0_pay6 (F := Ideal) (xrow m c t) (xcol m c t) (sqrow m c t) (sqcol m c t) (ix2 p q)) Triplet.pinf
      = Triplet.negv (feat m c) (labs m c) (rowOf t p) (colOf t q) := by
  rw [Pay.pay6_apply, labrow_apply, labcol_apply, sqrow_apply, sqcol_apply, negmOf_eq]
  unfold Triplet.negv
  rw [Triplet.dist_eq]
  unfold Triplet.dot
  simp only [xrow_apply, xcol_apply]

/-- The running maximum after point t's column tile. -/
theorem tile_max (c : Dev nD) (t : Fin cfg0.N) (prev : Vec Ideal S1024x1 .f32) (p : Fin 1024) :
    k0_pay2 (F := Ideal) (k0_pay6 (xrow m c t) (xcol m c t) (sqrow m c t) (sqcol m c t)) (k0_pay7 (grid0.coords t))
        (k0_pay8 (grid0.coords t)) (labrow m c t) (labcol m c t) prev (ix2 p 0)
      = max (prev (ix2 p 0)) (Finset.univ.sup fun q : Fin 512 => Triplet.posv (feat m c) (labs m c) (rowOf t p) (colOf t q)) := by
  refine (Pay.pay2_apply (k0_pay6 (F := Ideal) (xrow m c t) (xcol m c t) (sqrow m c t) (sqcol m c t)) (k0_pay7 (grid0.coords t))
    (k0_pay8 (grid0.coords t)) (labrow m c t) (labcol m c t) prev p).trans ?_
  exact congrArg (max (prev (ix2 p 0))) (Finset.sup_congr rfl fun q _ => tile_pos_entry m c t p q)

/-- The running minimum after point t's column tile. -/
theorem tile_min (c : Dev nD) (t : Fin cfg0.N) (prev : Vec Ideal S1024x1 .f32) (p : Fin 1024) :
    k0_pay3 (F := Ideal) (k0_pay6 (xrow m c t) (xcol m c t) (sqrow m c t) (sqcol m c t)) (labrow m c t) (labcol m c t) prev (ix2 p 0)
      = min (prev (ix2 p 0)) (Finset.univ.inf fun q : Fin 512 => Triplet.negv (feat m c) (labs m c) (rowOf t p) (colOf t q)) := by
  refine (Pay.pay3_apply (k0_pay6 (F := Ideal) (xrow m c t) (xcol m c t) (sqrow m c t) (sqcol m c t))
    (labrow m c t) (labcol m c t) prev p).trans ?_
  exact congrArg (min (prev (ix2 p 0))) (Finset.inf_congr rfl fun q _ => tile_neg_entry m c t p q)

end Cert.KernelIdeal.Hand
end
-- ==== Proof.KIAccum.lean ====
/-
  The accumulation over the grid's points. The supremum (infimum) of a function over the columns below (j + 1) * 512 is the
  larger (smaller) of the supremum (infimum) below j * 512 and the one over the j-th tile of 512 columns, by the universal
  property; so after the point in row tile i and column tile j the running maximum of a row is the supremum of the
  specification's positive values of that row over the columns below (j + 1) * 512, the running minimum the infimum of
  its negative values, and at the last column tile the outputs receive the extremes over all 8192 columns.
-/
import proofs.«167929_j87471303950746_1_alg».proof.Proof.KIBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## Suprema and infima over an initial segment of the columns -/

/-- The supremum of f over the columns below k, and the infimum. -/
def supBelow (f : Fin 8192 → EReal) (k : ℕ) : EReal := (Finset.univ.filter fun c' : Fin 8192 => c'.val < k).sup f
def infBelow (f : Fin 8192 → EReal) (k : ℕ) : EReal := (Finset.univ.filter fun c' : Fin 8192 => c'.val < k).inf f

theorem supBelow_zero (f : Fin 8192 → EReal) : supBelow f 0 = ⊥ := by
  unfold supBelow
  rw [Finset.filter_false_of_mem (fun c' _ => Nat.not_lt_zero _)]
  exact Finset.sup_empty

theorem infBelow_zero (f : Fin 8192 → EReal) : infBelow f 0 = ⊤ := by
  unfold infBelow
  rw [Finset.filter_false_of_mem (fun c' _ => Nat.not_lt_zero _)]
  exact Finset.inf_empty

theorem supBelow_all (f : Fin 8192 → EReal) : supBelow f (16 * 512) = Finset.univ.sup f := by
  unfold supBelow
  rw [Finset.filter_true_of_mem (fun c' _ => c'.isLt)]

theorem infBelow_all (f : Fin 8192 → EReal) : infBelow f (16 * 512) = Finset.univ.inf f := by
  unfold infBelow
  rw [Finset.filter_true_of_mem (fun c' _ => c'.isLt)]

theorem mem_below {k : ℕ} {c' : Fin 8192} : c' ∈ (Finset.univ.filter fun c' : Fin 8192 => c'.val < k) ↔ c'.val < k := by
  rw [Finset.mem_filter]; exact ⟨fun h => h.2, fun h => ⟨Finset.mem_univ _, h⟩⟩

/-- One more tile of 512 columns: the supremum below (j + 1) * 512 is the larger of the supremum below j * 512 and
    the supremum over the tile (g names the tile's values), by the universal property of the supremum. -/
theorem supBelow_step (f : Fin 8192 → EReal) (j : ℕ) (hj : j < 16) (g : Fin 512 → EReal)
    (hg : ∀ (q : Fin 512) (c' : Fin 8192), c'.val = j * 512 + q.val → g q = f c') :
    supBelow f ((j + 1) * 512) = max (supBelow f (j * 512)) (Finset.univ.sup g) := by
  unfold supBelow
  generalize hS1 : (Finset.univ.filter fun c' : Fin 8192 => c'.val < (j + 1) * 512) = S1
  generalize hS0 : (Finset.univ.filter fun c' : Fin 8192 => c'.val < j * 512) = S0
  have m1 : ∀ c' : Fin 8192, c' ∈ S1 ↔ c'.val < (j + 1) * 512 := fun c' => by rw [← hS1]; exact mem_below
  have m0 : ∀ c' : Fin 8192, c' ∈ S0 ↔ c'.val < j * 512 := fun c' => by rw [← hS0]; exact mem_below
  apply le_antisymm
  · refine Finset.sup_le fun c' hc => ?_
    have hc' : c'.val < (j + 1) * 512 := (m1 c').mp hc
    by_cases h : c'.val < j * 512
    · exact le_trans (Finset.le_sup (f := f) ((m0 c').mpr h)) (le_max_left _ _)
    · have e : g ⟨c'.val - j * 512, by omega⟩ = f c' := hg ⟨c'.val - j * 512, by omega⟩ c' (by show c'.val = j * 512 + (c'.val - j * 512); omega)
      exact le_trans (le_of_eq e.symm) (le_trans (Finset.le_sup (f := g) (Finset.mem_univ _)) (le_max_right _ _))
  · refine max_le ?_ ?_
    · refine Finset.sup_le fun c' hc => ?_
      exact Finset.le_sup (f := f) ((m1 c').mpr (by have := (m0 c').mp hc; omega))
    · refine Finset.sup_le fun q _ => ?_
      have e : g q = f ⟨j * 512 + q.val, by omega⟩ := hg q ⟨j * 512 + q.val, by omega⟩ rfl
      exact le_trans (le_of_eq e) (Finset.le_sup (f := f) ((m1 _).mpr (by show j * 512 + q.val < (j + 1) * 512; omega)))

/-- Dually for the infimum. -/
theorem infBelow_step (f : Fin 8192 → EReal) (j : ℕ) (hj : j < 16) (g : Fin 512 → EReal)
    (hg : ∀ (q : Fin 512) (c' : Fin 8192), c'.val = j * 512 + q.val → g q = f c') :
    infBelow f ((j + 1) * 512) = min (infBelow f (j * 512)) (Finset.univ.inf g) := by
  unfold infBelow
  generalize hS1 : (Finset.univ.filter fun c' : Fin 8192 => c'.val < (j + 1) * 512) = S1
  generalize hS0 : (Finset.univ.filter fun c' : Fin 8192 => c'.val < j * 512) = S0
  have m1 : ∀ c' : Fin 8192, c' ∈ S1 ↔ c'.val < (j + 1) * 512 := fun c' => by rw [← hS1]; exact mem_below
  have m0 : ∀ c' : Fin 8192, c' ∈ S0 ↔ c'.val < j * 512 := fun c' => by rw [← hS0]; exact mem_below
  apply le_antisymm
  · refine le_min ?_ ?_
    · refine Finset.le_inf fun c' hc => ?_
      exact Finset.inf_le (f := f) ((m1 c').mpr (by have := (m0 c').mp hc; omega))
    · refine Finset.le_inf fun q _ => ?_
      have e : g q = f ⟨j * 512 + q.val, by omega⟩ := hg q ⟨j * 512 + q.val, by omega⟩ rfl
      exact le_trans (Finset.inf_le (f := f) ((m1 _).mpr (by show j * 512 + q.val < (j + 1) * 512; omega))) (le_of_eq e.symm)
  · refine Finset.le_inf fun c' hc => ?_
    have hc' : c'.val < (j + 1) * 512 := (m1 c').mp hc
    by_cases h : c'.val < j * 512
    · exact le_trans (min_le_left _ _) (Finset.inf_le (f := f) ((m0 c').mpr h))
    · have e : g ⟨c'.val - j * 512, by omega⟩ = f c' := hg ⟨c'.val - j * 512, by omega⟩ c' (by show c'.val = j * 512 + (c'.val - j * 512); omega)
      exact le_trans (le_trans (min_le_right _ _) (Finset.inf_le (f := g) (Finset.mem_univ _))) (le_of_eq e)

/-- Adding point t's column tile to the supremum over the columns before it. -/
theorem acc_max (f : Fin 8192 → EReal) (t : Fin cfg0.N) (prev : EReal) (hprev : prev = supBelow f (t.val % 16 * 512)) :
    max prev (Finset.univ.sup fun q : Fin 512 => f (colOf t q)) = supBelow f ((t.val % 16 + 1) * 512) := by
  rw [hprev]
  exact (supBelow_step f (t.val % 16) (by omega) (fun q : Fin 512 => f (colOf t q))
    (fun q c' h => congrArg f (Fin.ext (by rw [colOf_val]; exact h.symm)))).symm

theorem acc_min (f : Fin 8192 → EReal) (t : Fin cfg0.N) (prev : EReal) (hprev : prev = infBelow f (t.val % 16 * 512)) :
    min prev (Finset.univ.inf fun q : Fin 512 => f (colOf t q)) = infBelow f ((t.val % 16 + 1) * 512) := by
  rw [hprev]
  exact (infBelow_step f (t.val % 16) (by omega) (fun q : Fin 512 => f (colOf t q))
    (fun q c' h => congrArg f (Fin.ext (by rw [colOf_val]; exact h.symm)))).symm

/-! ## What each case leaves, as the body's arithmetic on the point's blocks -/

theorem caseA_max (c : Dev nD) (t : Fin cfg0.N) (h0 : t.val % 16 = 0) (h1 : ¬t.val % 16 = 15) (p : Fin 1024) :
    (caseA m c t h0 h1).2.2.1 (ix2 p 0) = k0_pay2 (F := Ideal) (k0_pay6 (xrow m c t) (xcol m c t) (sqrow m c t) (sqcol m c t)) (k0_pay7 (grid0.coords t)) (k0_pay8 (grid0.coords t)) (labrow m c t) (labcol m c t) (k0_pay4 (F := Ideal)) (ix2 p 0) := by
  dsimp only [caseA]
  exact congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (xrow m c t) (xcol m c t) (sqrow m c t) (sqcol m c t) (labrow m c t) (labcol m c t)) (ix2 p 0)

theorem caseA_min (c : Dev nD) (t : Fin cfg0.N) (h0 : t.val % 16 = 0) (h1 : ¬t.val % 16 = 15) (p : Fin 1024) :
    (caseA m c t h0 h1).2.2.2 (ix2 p 0) = k0_pay3 (F := Ideal) (k0_pay6 (xrow m c t) (xcol m c t) (sqrow m c t) (sqcol m c t)) (labrow m c t) (labcol m c t) (k0_pay5 (F := Ideal)) (ix2 p 0) := by
  dsimp only [caseA]
  exact congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (xrow m c t) (xcol m c t) (sqrow m c t) (sqcol m c t) (labrow m c t) (labcol m c t)) (ix2 p 0)

theorem caseB_max (c : Dev nD) (t : Fin cfg0.N) (h0 : ¬t.val % 16 = 0) (h1 : ¬t.val % 16 = 15) (p0 p1 : Vec Ideal S1024x1 .f32) (p : Fin 1024) :
    (caseB m c t h0 h1 p0 p1).2.2.1 (ix2 p 0) = k0_pay2 (F := Ideal) (k0_pay6 (xrow m c t) (xcol m c t) (sqrow m c t) (sqcol m c t)) (k0_pay7 (grid0.coords t)) (k0_pay8 (grid0.coords t)) (labrow m c t) (labcol m c t) p0 (ix2 p 0) := by
  dsimp only [caseB]
  exact congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (xrow m c t) (xcol m c t) (sqrow m c t) (sqcol m c t) (labrow m c t) (labcol m c t) p0 p1) (ix2 p 0)

theorem caseB_min (c : Dev nD) (t : Fin cfg0.N) (h0 : ¬t.val % 16 = 0) (h1 : ¬t.val % 16 = 15) (p0 p1 : Vec Ideal S1024x1 .f32) (p : Fin 1024) :
    (caseB m c t h0 h1 p0 p1).2.2.2 (ix2 p 0) = k0_pay3 (F := Ideal) (k0_pay6 (xrow m c t) (xcol m c t) (sqrow m c t) (sqcol m c t)) (labrow m c t) (labcol m c t) p1 (ix2 p 0) := by
  dsimp only [caseB]
  exact congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (xrow m c t) (xcol m c t) (sqrow m c t) (sqcol m c t) (labrow m c t) (labcol m c t) p0 p1) (ix2 p 0)

theorem caseC_max (c : Dev nD) (t : Fin cfg0.N) (h0 : ¬t.val % 16 = 0) (h1 : t.val % 16 = 15) (p0 p1 : Vec Ideal S1024x1 .f32) (p : Fin 1024) :
    (caseC m c t h0 h1 p0 p1).2.2.1 (ix2 p 0) = k0_pay2 (F := Ideal) (k0_pay6 (xrow m c t) (xcol m c t) (sqrow m c t) (sqcol m c t)) (k0_pay7 (grid0.coords t)) (k0_pay8 (grid0.coords t)) (labrow m c t) (labcol m c t) p0 (ix2 p 0) := by
  dsimp only [caseC]
  exact congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (xrow m c t) (xcol m c t) (sqrow m c t) (sqcol m c t) (labrow m c t) (labcol m c t) p0 p1) (ix2 p 0)

theorem caseC_min (c : Dev nD) (t : Fin cfg0.N) (h0 : ¬t.val % 16 = 0) (h1 : t.val % 16 = 15) (p0 p1 : Vec Ideal S1024x1 .f32) (p : Fin 1024) :
    (caseC m c t h0 h1 p0 p1).2.2.2 (ix2 p 0) = k0_pay3 (F := Ideal) (k0_pay6 (xrow m c t) (xcol m c t) (sqrow m c t) (sqcol m c t)) (labrow m c t) (labcol m c t) p1 (ix2 p 0) := by
  dsimp only [caseC]
  exact congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (xrow m c t) (xcol m c t) (sqrow m c t) (sqcol m c t) (labrow m c t) (labcol m c t) p0 p1) (ix2 p 0)

theorem caseC_out6 (c : Dev nD) (t : Fin cfg0.N) (h0 : ¬t.val % 16 = 0) (h1 : t.val % 16 = 15) (p0 p1 : Vec Ideal S1024x1 .f32) (p : Fin 1024) :
    (caseC m c t h0 h1 p0 p1).1 (ix2 p 0) = k0_pay2 (F := Ideal) (k0_pay6 (xrow m c t) (xcol m c t) (sqrow m c t) (sqcol m c t)) (k0_pay7 (grid0.coords t)) (k0_pay8 (grid0.coords t)) (labrow m c t) (labcol m c t) p0 (ix2 p 0) := by
  dsimp only [caseC]
  exact congrFun (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (xrow m c t) (xcol m c t) (sqrow m c t) (sqcol m c t) (labrow m c t) (labcol m c t) p0 p1) (ix2 p 0)

theorem caseC_out7 (c : Dev nD) (t : Fin cfg0.N) (h0 : ¬t.val % 16 = 0) (h1 : t.val % 16 = 15) (p0 p1 : Vec Ideal S1024x1 .f32) (p : Fin 1024) :
    (caseC m c t h0 h1 p0 p1).2.1 (ix2 p 0) = k0_pay3 (F := Ideal) (k0_pay6 (xrow m c t) (xcol m c t) (sqrow m c t) (sqcol m c t)) (labrow m c t) (labcol m c t) p1 (ix2 p 0) := by
  dsimp only [caseC]
  exact congrFun (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (xrow m c t) (xcol m c t) (sqrow m c t) (sqcol m c t) (labrow m c t) (labcol m c t) p0 p1) (ix2 p 0)

/-! ## The invariant over the points

After point n, in row tile n / 16 and column tile n % 16, the running maximum of row p of the tile is the supremum of the
specification's positive values of global row n / 16 * 1024 + p over the columns below (n % 16 + 1) * 512, and the running
minimum the infimum of its negative values over the same columns: a first column tile starts from the reset value, the
others from what the point before left. -/

theorem inv_max (c : Dev nD) : ∀ (n : ℕ) (hn : n < cfg0.N) (p : Fin 1024),
    (outsAt0 m c n hn).2.2.1 (ix2 p 0)
      = supBelow (Triplet.posv (feat m c) (labs m c) (rowOf ⟨n, hn⟩ p)) ((n % 16 + 1) * 512) := by
  intro n
  induction n using Nat.strong_induction_on with
  | _ n ih =>
    intro hn p
    have hN : n < 128 := tN ⟨n, hn⟩
    by_cases h0 : n % 16 = 0
    · have h1 : ¬ n % 16 = 15 := by omega
      refine (congrFun (congrArg (fun o => o.2.2.1) (outsAt0_A m c ⟨n, hn⟩ h0 h1)) (ix2 p 0)).trans ?_
      refine (caseA_max m c ⟨n, hn⟩ h0 h1 p).trans ?_
      refine (tile_max m c ⟨n, hn⟩ _ p).trans ?_
      refine acc_max (Triplet.posv (feat m c) (labs m c) (rowOf ⟨n, hn⟩ p)) ⟨n, hn⟩ _ ?_
      show k0_pay4 (F := Ideal) (ix2 p 0) = supBelow _ (n % 16 * 512)
      rw [Pay.pay4_apply, Triplet.Math.ninf_eq, h0, Nat.zero_mul, supBelow_zero]
    · have hz : n ≠ 0 := fun h => h0 (by rw [h])
      have hrow : rowOf ⟨n - 1, by omega⟩ p = rowOf ⟨n, hn⟩ p :=
        Fin.ext (by show (n - 1) / 16 * 1024 + p.val = n / 16 * 1024 + p.val; omega)
      have hk : ((n - 1) % 16 + 1) * 512 = n % 16 * 512 := by omega
      have hprev := ih (n - 1) (by omega) (by omega) p
      rw [hrow, hk] at hprev
      by_cases h1 : n % 16 = 15
      · refine (congrFun (congrArg (fun o => o.2.2.1) (outsAt0_C m c ⟨n, hn⟩ h0 h1)) (ix2 p 0)).trans ?_
        refine (caseC_max m c ⟨n, hn⟩ h0 h1 _ _ p).trans ?_
        refine (tile_max m c ⟨n, hn⟩ _ p).trans ?_
        exact acc_max (Triplet.posv (feat m c) (labs m c) (rowOf ⟨n, hn⟩ p)) ⟨n, hn⟩ _ hprev
      · refine (congrFun (congrArg (fun o => o.2.2.1) (outsAt0_B m c ⟨n, hn⟩ h0 h1)) (ix2 p 0)).trans ?_
        refine (caseB_max m c ⟨n, hn⟩ h0 h1 _ _ p).trans ?_
        refine (tile_max m c ⟨n, hn⟩ _ p).trans ?_
        exact acc_max (Triplet.posv (feat m c) (labs m c) (rowOf ⟨n, hn⟩ p)) ⟨n, hn⟩ _ hprev

theorem inv_min (c : Dev nD) : ∀ (n : ℕ) (hn : n < cfg0.N) (p : Fin 1024),
    (outsAt0 m c n hn).2.2.2 (ix2 p 0)
      = infBelow (Triplet.negv (feat m c) (labs m c) (rowOf ⟨n, hn⟩ p)) ((n % 16 + 1) * 512) := by
  intro n
  induction n using Nat.strong_induction_on with
  | _ n ih =>
    intro hn p
    have hN : n < 128 := tN ⟨n, hn⟩
    by_cases h0 : n % 16 = 0
    · have h1 : ¬ n % 16 = 15 := by omega
      refine (congrFun (congrArg (fun o => o.2.2.2) (outsAt0_A m c ⟨n, hn⟩ h0 h1)) (ix2 p 0)).trans ?_
      refine (caseA_min m c ⟨n, hn⟩ h0 h1 p).trans ?_
      refine (tile_min m c ⟨n, hn⟩ _ p).trans ?_
      refine acc_min (Triplet.negv (feat m c) (labs m c) (rowOf ⟨n, hn⟩ p)) ⟨n, hn⟩ _ ?_
      show k0_pay5 (F := Ideal) (ix2 p 0) = infBelow _ (n % 16 * 512)
      rw [Pay.pay5_apply, Triplet.Math.pinf_eq, h0, Nat.zero_mul, infBelow_zero]
    · have hz : n ≠ 0 := fun h => h0 (by rw [h])
      have hrow : rowOf ⟨n - 1, by omega⟩ p = rowOf ⟨n, hn⟩ p :=
        Fin.ext (by show (n - 1) / 16 * 1024 + p.val = n / 16 * 1024 + p.val; omega)
      have hk : ((n - 1) % 16 + 1) * 512 = n % 16 * 512 := by omega
      have hprev := ih (n - 1) (by omega) (by omega) p
      rw [hrow, hk] at hprev
      by_cases h1 : n % 16 = 15
      · refine (congrFun (congrArg (fun o => o.2.2.2) (outsAt0_C m c ⟨n, hn⟩ h0 h1)) (ix2 p 0)).trans ?_
        refine (caseC_min m c ⟨n, hn⟩ h0 h1 _ _ p).trans ?_
        refine (tile_min m c ⟨n, hn⟩ _ p).trans ?_
        exact acc_min (Triplet.negv (feat m c) (labs m c) (rowOf ⟨n, hn⟩ p)) ⟨n, hn⟩ _ hprev
      · refine (congrFun (congrArg (fun o => o.2.2.2) (outsAt0_B m c ⟨n, hn⟩ h0 h1)) (ix2 p 0)).trans ?_
        refine (caseB_min m c ⟨n, hn⟩ h0 h1 _ _ p).trans ?_
        refine (tile_min m c ⟨n, hn⟩ _ p).trans ?_
        exact acc_min (Triplet.negv (feat m c) (labs m c) (rowOf ⟨n, hn⟩ p)) ⟨n, hn⟩ _ hprev

/-- At a last column tile the output's staging buffer receives the maximum over all 8192 columns. -/
theorem out_max (c : Dev nD) (t : Fin cfg0.N) (h1 : t.val % 16 = 15) (p : Fin 1024) :
    (outsAt0 m c t.val t.isLt).1 (ix2 p 0) = Triplet.hp (feat m c) (labs m c) (rowOf t p) := by
  have h0 : ¬ t.val % 16 = 0 := by omega
  have hN := tN t
  have hlt := t.isLt
  refine (congrFun (congrArg (fun o => o.1) (outsAt0_C m c t h0 h1)) (ix2 p 0)).trans ?_
  refine (caseC_out6 m c t h0 h1 _ _ p).trans ?_
  refine (tile_max m c t _ p).trans ?_
  have hrow : rowOf ⟨t.val - 1, by omega⟩ p = rowOf t p :=
    Fin.ext (by show (t.val - 1) / 16 * 1024 + p.val = t.val / 16 * 1024 + p.val; omega)
  have hk : ((t.val - 1) % 16 + 1) * 512 = t.val % 16 * 512 := by omega
  have hprev := inv_max m c (t.val - 1) (by omega) p
  rw [hrow, hk] at hprev
  refine (acc_max (Triplet.posv (feat m c) (labs m c) (rowOf t p)) t _ hprev).trans ?_
  rw [h1]
  exact supBelow_all _

/-- At a last column tile the output's staging buffer receives the minimum over all 8192 columns. -/
theorem out_min (c : Dev nD) (t : Fin cfg0.N) (h1 : t.val % 16 = 15) (p : Fin 1024) :
    (outsAt0 m c t.val t.isLt).2.1 (ix2 p 0) = Triplet.hn (feat m c) (labs m c) (rowOf t p) := by
  have h0 : ¬ t.val % 16 = 0 := by omega
  have hN := tN t
  have hlt := t.isLt
  refine (congrFun (congrArg (fun o => o.2.1) (outsAt0_C m c t h0 h1)) (ix2 p 0)).trans ?_
  refine (caseC_out7 m c t h0 h1 _ _ p).trans ?_
  refine (tile_min m c t _ p).trans ?_
  have hrow : rowOf ⟨t.val - 1, by omega⟩ p = rowOf t p :=
    Fin.ext (by show (t.val - 1) / 16 * 1024 + p.val = t.val / 16 * 1024 + p.val; omega)
  have hk : ((t.val - 1) % 16 + 1) * 512 = t.val % 16 * 512 := by omega
  have hprev := inv_min m c (t.val - 1) (by omega) p
  rw [hrow, hk] at hprev
  refine (acc_min (Triplet.negv (feat m c) (labs m c) (rowOf t p)) t _ hprev).trans ?_
  rw [h1]
  exact infBelow_all _

end Cert.KernelIdeal.Hand
end
-- ==== Proof.KIValue.lean ====
/-
  From the blocks to the arrays. Each output's block is written back only at the last column tile of its row tile, where its
  staging buffer holds the extremes over all 8192 columns; those 8 blocks of 1024 rows tile the array (row r lies in the block
  of point (r / 1024) * 16 + 15), so the first output array ends holding the hardest positive of every row and the second the
  hardest negative.
-/
import proofs.«167929_j87471303950746_1_alg».proof.Proof.KIAccum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## From the blocks to the arrays -/

/-- Output 6 as one function of the arguments: row r holds the hardest positive of row r. -/
def G6 (c : Dev nD) : S8192x1.Idx → EReal := fun i => Triplet.hp (feat m c) (labs m c) (i 0)

/-- What a last column tile's point writes back is its block of that function. -/
theorem flushed6_eq (c : Dev nD) (t : Fin cfg0.N) (hf : (cfg0.win 6).flush t = true) :
    (dats m 0 c).flushed 6 t = ((cfg0.win 6).blk t).view.read (Elt Ideal) (G6 m c) := by
  have h1 : t.val % 16 = 15 := (flush0_6 t).mp hf
  show (cfg0.win 6).cut (grid0.coords t) ((dats m 0 c).after 6 t) = _
  rw [after0_6]
  funext j
  obtain ⟨p, z, rfl⟩ : ∃ (p : Fin 1024) (z : Fin 1), j = ix2 p z := ⟨j 0, j 1, eq_ix2 j⟩
  obtain rfl : z = 0 := Subsingleton.elim _ _
  rw [View.read_apply]
  show (outsAt0 m c t.val t.isLt).1 (ix2 p 0) = G6 m c (((cfg0.win 6).blk t).view.emb (ix2 p 0))
  refine (out_max m c t h1 p).trans ?_
  refine congrArg (Triplet.hp (feat m c) (labs m c)) (Fin.ext ?_)
  show (rowOf t p).val = win0_6.index t (0 : Fin 2) * 1024 + 1 * p.val
  rw [(idx_facts t).2.2.2.2.2.2.1.1, rowOf_val]; omega

/-- An index of the array is in point t's block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v7_0).slice (win0_6.rect t)).set ↔ _
  rw [View.set_slice_whole, Rect.mem_set_unit]
  exact Iff.rfl

/-- Row r is in the block of the last column tile's point of its row tile, which writes back. -/
theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 128 := N_0
  let t : Fin cfg0.N := ⟨(i 0).val / 1024 * 16 + 15, by rw [hN]; omega⟩
  have htv : t.val = (i 0).val / 1024 * 16 + 15 := rfl
  refine ⟨t, (flush0_6 t).mpr (by rw [htv]; omega), ?_⟩
  rw [mem_blk6]
  intro a
  match a with
  | ⟨0, _⟩ =>
    show win0_6.index t (0 : Fin 2) * 1024 ≤ (i 0).val ∧ (i 0).val < win0_6.index t (0 : Fin 2) * 1024 + 1024
    rw [(idx_facts t).2.2.2.2.2.2.1.1, htv]; omega
  | ⟨1, _⟩ =>
    show win0_6.index t (1 : Fin 2) * 1 ≤ (i 1).val ∧ (i 1).val < win0_6.index t (1 : Fin 2) * 1 + 1
    rw [(idx_facts t).2.2.2.2.2.2.1.2]; omega

/-- So the array ends holding that function. -/
theorem final6 (c : Dev nD) : (dats m 0 c).arrAt 6 cfg0.N = G6 m c :=
  (dats m 0 c).arrAt_eq_of_cover 6 (G6 m c) (flushed6_eq m c) cover6

/-- Output 7 as one function of the arguments: row r holds the hardest negative of row r. -/
def G7 (c : Dev nD) : S8192x1.Idx → EReal := fun i => Triplet.hn (feat m c) (labs m c) (i 0)

/-- What a last column tile's point writes back is its block of that function. -/
theorem flushed7_eq (c : Dev nD) (t : Fin cfg0.N) (hf : (cfg0.win 7).flush t = true) :
    (dats m 0 c).flushed 7 t = ((cfg0.win 7).blk t).view.read (Elt Ideal) (G7 m c) := by
  have h1 : t.val % 16 = 15 := (flush0_7 t).mp hf
  show (cfg0.win 7).cut (grid0.coords t) ((dats m 0 c).after 7 t) = _
  rw [after0_7]
  funext j
  obtain ⟨p, z, rfl⟩ : ∃ (p : Fin 1024) (z : Fin 1), j = ix2 p z := ⟨j 0, j 1, eq_ix2 j⟩
  obtain rfl : z = 0 := Subsingleton.elim _ _
  rw [View.read_apply]
  show (outsAt0 m c t.val t.isLt).2.1 (ix2 p 0) = G7 m c (((cfg0.win 7).blk t).view.emb (ix2 p 0))
  refine (out_min m c t h1 p).trans ?_
  refine congrArg (Triplet.hn (feat m c) (labs m c)) (Fin.ext ?_)
  show (rowOf t p).val = win0_7.index t (0 : Fin 2) * 1024 + 1 * p.val
  rw [(idx_facts t).2.2.2.2.2.2.2.1, rowOf_val]; omega

/-- An index of the array is in point t's block iff each coordinate is in the block's range on its axis. -/
theorem mem_blk7 (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v7_1).slice (win0_7.rect t)).set ↔ _
  rw [View.set_slice_whole, Rect.mem_set_unit]
  exact Iff.rfl

/-- Row r is in the block of the last column tile's point of its row tile, which writes back. -/
theorem cover7 (i : S8192x1.Idx) :
    ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 128 := N_0
  let t : Fin cfg0.N := ⟨(i 0).val / 1024 * 16 + 15, by rw [hN]; omega⟩
  have htv : t.val = (i 0).val / 1024 * 16 + 15 := rfl
  refine ⟨t, (flush0_7 t).mpr (by rw [htv]; omega), ?_⟩
  rw [mem_blk7]
  intro a
  match a with
  | ⟨0, _⟩ =>
    show win0_7.index t (0 : Fin 2) * 1024 ≤ (i 0).val ∧ (i 0).val < win0_7.index t (0 : Fin 2) * 1024 + 1024
    rw [(idx_facts t).2.2.2.2.2.2.2.1, htv]; omega
  | ⟨1, _⟩ =>
    show win0_7.index t (1 : Fin 2) * 1 ≤ (i 1).val ∧ (i 1).val < win0_7.index t (1 : Fin 2) * 1 + 1
    rw [(idx_facts t).2.2.2.2.2.2.2.2]; omega

/-- So the array ends holding that function. -/
theorem final7 (c : Dev nD) : (dats m 0 c).arrAt 7 cfg0.N = G7 m c :=
  (dats m 0 c).arrAt_eq_of_cover 7 (G7 m c) (flushed7_eq m c) cover7

/-- The first output array ends at the hardest positive of every row. -/
theorem hp_final (c : Dev nD) (r : Fin 8192) :
    ((dats m 0 c).arrAt 6 cfg0.N : S8192x1.Idx → EReal) (ValueIdx.ix2 r 0)
      = Triplet.hp (m ((c.tc : Thread nD τ).loc main_arg0)) (m ((c.tc : Thread nD τ).loc main_arg1)) r :=
  (congrFun (final6 m c) (ix2 r 0)).trans rfl

/-- The second output array ends at the hardest negative of every row. -/
theorem hn_final (c : Dev nD) (r : Fin 8192) :
    ((dats m 0 c).arrAt 7 cfg0.N : S8192x1.Idx → EReal) (ValueIdx.ix2 r 0)
      = Triplet.hn (m ((c.tc : Thread nD τ).loc main_arg0)) (m ((c.tc : Thread nD τ).loc main_arg1)) r :=
  (congrFun (final7 m c) (ix2 r 0)).trans rfl

end Cert.KernelIdeal.Hand
end
-- ==== Proof.RefValue.lean ====
/-
  The reference program's result, read index by index, is the batch-hard triplet loss of the specification:
  the pairwise distances, the two masks, the row-wise extremes and the row-wise existence tests, then the
  mean of the hinges over the valid rows.
-/
import proofs.«167929_j87471303950746_1_alg».proof.Proof.RefRead
import proofs.«167929_j87471303950746_1_alg».proof.Proof.Spec
import Idealize.ShloMosaic.PureOps.Reduce
import Idealize.ShloMosaic.PureOps.Ideal.Laws
import Idealize.ShloMosaic.Lib.ValueIdx
import Idealize.ShloMosaic.Lib.ValueIdxRank1

noncomputable section

namespace Cert.ReferenceIdeal.RefValue

open Cert.ReferenceIdeal Cert.ReferenceIdeal.Gen Cert.ReferenceIdeal.ReadP Idealize.ShloMosaic Idealize.ShloMosaic.ValueIdx

/-! ## The pairwise distances -/

/-- The squared norm of the row of the first coordinate. -/
theorem sq_row (x : FVec Ideal S8192x128 .f32) (i : S8192x8192.Idx) :
    val_main_v4 (F := Ideal) x i = Triplet.sq x (i 0) := by
  rw [val_main_v4_apply, val_main_v2_apply, val_main_v1_apply]
  unfold Triplet.sq
  refine congrArg₂ (· + ·) rfl (Finset.sum_congr rfl fun k _ => ?_)
  rw [val_main_v0_apply]
  have e : idx_main_v1 (idx_main_v2 (idx_main_v4 i)) k = ix2 (i 0) k := by
    funext a; match a with | ⟨0, _⟩ => rfl | ⟨1, _⟩ => rfl
  rw [e]; rfl

/-- The squared norm of the row of the second coordinate. -/
theorem sq_col (x : FVec Ideal S8192x128 .f32) (i : S8192x8192.Idx) :
    val_main_v5 (F := Ideal) x i = Triplet.sq x (i 1) := by
  rw [val_main_v5_apply, val_main_v3_apply, val_main_v1_apply]
  unfold Triplet.sq
  refine congrArg₂ (· + ·) rfl (Finset.sum_congr rfl fun k _ => ?_)
  rw [val_main_v0_apply]
  have e : idx_main_v1 (idx_main_v3 (idx_main_v5 i)) k = ix2 (i 1) k := by
    funext a; match a with | ⟨0, _⟩ => rfl | ⟨1, _⟩ => rfl
  rw [e]; rfl

/-- The inner product of the two rows. -/
theorem dot_eq (x : FVec Ideal S8192x128 .f32) (i : S8192x8192.Idx) :
    val_main_v8 (F := Ideal) x i = Triplet.dot x (i 0) (i 1) := by
  rw [val_main_v8_apply]
  unfold Triplet.dot
  refine Finset.sum_congr rfl fun k _ => ?_
  rw [val_main_v7_apply]
  have el : lidx_main_v8 i k = ix2 (i 0) k := by
    funext a; match a with | ⟨0, _⟩ => rfl | ⟨1, _⟩ => rfl
  have er : idx_main_v7 (ridx_main_v8 i k) = ix2 (i 1) k := by
    funext a; match a with | ⟨0, _⟩ => rfl | ⟨1, _⟩ => rfl
  rw [el, er]; rfl

/-- The clamped squared distance. -/
theorem sqd_eq (x : FVec Ideal S8192x128 .f32) (i : S8192x8192.Idx) :
    val_main_v13 (F := Ideal) x i = Triplet.sqd x (i 0) (i 1) := by
  rw [val_main_v13_apply, val_main_v11_apply, val_main_v6_apply, val_main_v10_apply, sq_row, sq_col, dot_eq,
    val_main_v9_apply, val_main_v12_apply]
  rfl

/-- The distance. -/
theorem dist_eq (x : FVec Ideal S8192x128 .f32) (i : S8192x8192.Idx) :
    val_main_v20 (F := Ideal) x i = Triplet.dist x (i 0) (i 1) := by
  rw [val_main_v20_apply, val_main_v15_apply, val_main_v19_apply, val_main_v18_apply, val_main_v17_apply, sqd_eq,
    val_main_v14_apply, val_main_v16_apply, val_main_call0_v1_apply, val_main_call1_v1_apply]
  rfl

/-! ## The masks -/

/-- The labels of the two rows agree. -/
theorem same_eq (lab : IVec S8192 32) (i : S8192x8192.Idx) :
    val_main_v25 (F := Ideal) lab i = Triplet.same lab (i 0) (i 1) := by
  rw [val_main_v25_apply, val_main_v23_apply, val_main_v24_apply, val_main_v21_apply, val_main_v22_apply]
  have e0 : idx_main_v21 (idx_main_v23 i) = ix1 (i 0) := by
    funext a; match a with | ⟨0, _⟩ => rfl
  have e1 : idx_main_v22 (idx_main_v24 i) = ix1 (i 1) := by
    funext a; match a with | ⟨0, _⟩ => rfl
  rw [e0, e1]; rfl

/-- The two coordinates are one row. -/
theorem eye_eq (i : S8192x8192.Idx) :
    val_main_v32 (F := Ideal) i = Triplet.eye (i 0) (i 1) := by
  rw [val_main_v32_apply, val_main_v30_apply, val_main_v31_apply, val_main_v27_apply, val_main_v29_apply,
    val_main_v26_apply, val_main_v28_apply]
  rfl

/-- The positive pairs. -/
theorem posm_eq (lab : IVec S8192 32) (i : S8192x8192.Idx) :
    val_main_v34 (F := Ideal) lab i = Triplet.posm lab (i 0) (i 1) := by
  rw [val_main_v34_apply, val_main_v33_apply, same_eq, eye_eq]
  rfl

/-- The negative pairs. -/
theorem negm_eq (lab : IVec S8192 32) (i : S8192x8192.Idx) :
    val_main_v35 (F := Ideal) lab i = Triplet.negm lab (i 0) (i 1) := by
  rw [val_main_v35_apply, same_eq]
  rfl

/-- The distance on the positives, -inf elsewhere. -/
theorem posv_eq (x : FVec Ideal S8192x128 .f32) (lab : IVec S8192 32) (i : S8192x8192.Idx) :
    val_main_v36 (F := Ideal) x lab i = Triplet.posv x lab (i 0) (i 1) := by
  rw [val_main_v36_apply, posm_eq, dist_eq, val_main_call2_v1_apply]
  rfl

/-- The distance on the negatives, +inf elsewhere. -/
theorem negv_eq (x : FVec Ideal S8192x128 .f32) (lab : IVec S8192 32) (i : S8192x8192.Idx) :
    val_main_v38 (F := Ideal) x lab i = Triplet.negv x lab (i 0) (i 1) := by
  rw [val_main_v38_apply, negm_eq, dist_eq, val_main_call3_v1_apply]
  rfl

/-! ## The row-wise reductions -/

/-- The two infinities' words. -/
theorem ninf_eq : Triplet.ninf = ⊥ := by
  simp [Triplet.ninf, Ideal.ofBits, Ideal.ieee]
theorem pinf_eq : Triplet.pinf = ⊤ := by
  simp [Triplet.pinf, Ideal.ofBits, Ideal.ieee]

/-- A fold of the maximum from -inf is the supremum. -/
theorem fold_maximumf_eq_sup {ι : Type} (s : Finset ι) (f : ι → EReal) :
    s.fold (FloatOps.maximumf (F := Ideal) (φ := .f32)) (⊥ : EReal) f = s.sup f := by
  induction s using Finset.cons_induction with
  | empty => simp
  | cons a s ha ih =>
    rw [Finset.fold_cons, Finset.sup_cons, ih]
    rfl

/-- A fold of the minimum from +inf is the infimum. -/
theorem fold_minimumf_eq_inf {ι : Type} (s : Finset ι) (f : ι → EReal) :
    s.fold (FloatOps.minimumf (F := Ideal) (φ := .f32)) (⊤ : EReal) f = s.inf f := by
  induction s using Finset.cons_induction with
  | empty => simp
  | cons a s ha ih =>
    rw [Finset.fold_cons, Finset.inf_cons, ih]
    rfl

/-- A fold of the or of one-bit words from 0 is 1 exactly when some word is 1. -/
theorem fold_ori_eq {ι : Type} (s : Finset ι) (f : ι → BitVec 1) :
    s.fold IntOp.ori 0#1 f = if ∃ c ∈ s, f c = 1#1 then 1#1 else 0#1 := by
  induction s using Finset.cons_induction with
  | empty => simp
  | cons a s ha ih =>
    rw [Finset.fold_cons, ih]
    by_cases h1 : f a = 1#1
    · have h3 : ∃ c ∈ Finset.cons a s ha, f c = 1#1 := ⟨a, Finset.mem_cons_self a s, h1⟩
      rw [if_pos h3, h1]
      by_cases h2 : ∃ c ∈ s, f c = 1#1
      · rw [if_pos h2]; rfl
      · rw [if_neg h2]; rfl
    · have h0 : f a = 0#1 := eq_zero_of_ne_one h1
      rw [h0]
      by_cases h2 : ∃ c ∈ s, f c = 1#1
      · obtain ⟨c, hc, hc1⟩ := h2
        have h3 : ∃ c ∈ Finset.cons a s ha, f c = 1#1 := ⟨c, Finset.mem_cons.2 (Or.inr hc), hc1⟩
        rw [if_pos ⟨c, hc, hc1⟩, if_pos h3]
        rfl
      · have h3 : ¬ ∃ c ∈ Finset.cons a s ha, f c = 1#1 := by
          rintro ⟨c, hc, hc1⟩
          rcases Finset.mem_cons.1 hc with rfl | hc
          · exact h1 hc1
          · exact h2 ⟨c, hc, hc1⟩
        rw [if_neg h2, if_neg h3]
        rfl

/-- Two one-bit tests of equivalent conditions agree, whatever decides them. -/
theorem ite_bit_congr {p q : Prop} (dp : Decidable p) (dq : Decidable q) (h : p ↔ q) :
    @ite _ p dp 1#1 0#1 = @ite _ q dq 1#1 0#1 := by
  by_cases hp : p
  · rw [if_pos hp, if_pos (h.1 hp)]
  · rw [if_neg hp, if_neg (mt h.2 hp)]

/-- Dropping the second axis of the square. -/
theorem red : S8192x8192.Reduces [1] S8192 := by decide

theorem lift0 (j : S8192.Idx) (k : Fin (S8192x8192.size 1)) : (red.lift j k) 0 = j 0 := by
  apply Fin.ext
  rw [Shape.Reduces.lift_val]
  rfl

theorem lift1 (j : S8192.Idx) (k : Fin (S8192x8192.size 1)) : (red.lift j k) 1 = k := by
  apply Fin.ext
  rw [Shape.Reduces.lift_val]
  rfl

/-- The hardest positive of a row. -/
theorem hp_eq (x : FVec Ideal S8192x128 .f32) (lab : IVec S8192 32) (j : S8192.Idx) :
    val_main_v37 (F := Ideal) x lab j = Triplet.hp x lab (j 0) := by
  unfold val_main_v37
  rw [Host.reduce_eq_fold_single _ _ _ reducesTo_S8192x8192_S8192_d1 red]
  have e : val_main_cst_7 (F := Ideal) (Shape.Idx.first h_S_) = (⊥ : EReal) := ninf_eq
  rw [e, fold_maximumf_eq_sup]
  unfold Triplet.hp
  refine Finset.sup_congr rfl fun k _ => ?_
  show val_main_v36 (F := Ideal) x lab (red.lift j k) = _
  rw [posv_eq, lift0, lift1]

/-- The hardest negative of a row. -/
theorem hn_eq (x : FVec Ideal S8192x128 .f32) (lab : IVec S8192 32) (j : S8192.Idx) :
    val_main_v39 (F := Ideal) x lab j = Triplet.hn x lab (j 0) := by
  unfold val_main_v39
  rw [Host.reduce_eq_fold_single _ _ _ reducesTo_S8192x8192_S8192_d1 red]
  have e : val_main_cst_9 (F := Ideal) (Shape.Idx.first h_S_) = (⊤ : EReal) := pinf_eq
  rw [e, fold_minimumf_eq_inf]
  unfold Triplet.hn
  refine Finset.inf_congr rfl fun k _ => ?_
  show val_main_v38 (F := Ideal) x lab (red.lift j k) = _
  rw [negv_eq, lift0, lift1]

/-- The masks over a row, read at the coordinates. -/
theorem posm_lift (lab : IVec S8192 32) (j : S8192.Idx) (k : Fin (S8192x8192.size 1)) :
    val_main_v34 (F := Ideal) lab (red.lift j k) = Triplet.posm lab (j 0) k := by
  rw [posm_eq, lift0, lift1]
theorem negm_lift (lab : IVec S8192 32) (j : S8192.Idx) (k : Fin (S8192x8192.size 1)) :
    val_main_v35 (F := Ideal) lab (red.lift j k) = Triplet.negm lab (j 0) k := by
  rw [negm_eq, lift0, lift1]

/-- Some positive exists in a row. -/
theorem anyPos_eq (lab : IVec S8192 32) (j : S8192.Idx) :
    val_main_v40 (F := Ideal) lab j = Triplet.anyPos lab (j 0) := by
  unfold val_main_v40
  rw [Host.reduce_eq_fold_single _ _ _ reducesTo_S8192x8192_S8192_d1 red]
  have e : val_main_c (F := Ideal) (Shape.Idx.first h_S_) = 0#1 := rfl
  rw [e, fold_ori_eq]
  unfold Triplet.anyPos
  refine ite_bit_congr _ _ ⟨?_, ?_⟩
  · rintro ⟨k, _, hk⟩
    exact ⟨k, (posm_lift lab j k).symm.trans hk⟩
  · rintro ⟨k, hk⟩
    exact ⟨k, Finset.mem_univ _, (posm_lift lab j k).trans hk⟩

/-- Some negative exists in a row. -/
theorem anyNeg_eq (lab : IVec S8192 32) (j : S8192.Idx) :
    val_main_v41 (F := Ideal) lab j = Triplet.anyNeg lab (j 0) := by
  unfold val_main_v41
  rw [Host.reduce_eq_fold_single _ _ _ reducesTo_S8192x8192_S8192_d1 red]
  have e : val_main_c_10 (F := Ideal) (Shape.Idx.first h_S_) = 0#1 := rfl
  rw [e, fold_ori_eq]
  unfold Triplet.anyNeg
  refine ite_bit_congr _ _ ⟨?_, ?_⟩
  · rintro ⟨k, _, hk⟩
    exact ⟨k, (negm_lift lab j k).symm.trans hk⟩
  · rintro ⟨k, hk⟩
    exact ⟨k, Finset.mem_univ _, (negm_lift lab j k).trans hk⟩

/-! ## The hinges and their mean -/

/-- A row has a positive and a negative. -/
theorem valid_eq (lab : IVec S8192 32) (j : S8192.Idx) :
    val_main_v42 (F := Ideal) lab j = Triplet.validR lab (j 0) := by
  rw [val_main_v42_apply, anyPos_eq, anyNeg_eq]
  rfl

/-- The hinge of a row. -/
theorem perRow_eq (x : FVec Ideal S8192x128 .f32) (lab : IVec S8192 32) (j : S8192.Idx) :
    val_main_v49 (F := Ideal) x lab j
      = Triplet.perRow (Triplet.hp x lab) (Triplet.hn x lab) (Triplet.validR lab) (j 0) := by
  rw [val_main_v49_apply, val_main_v48_apply, val_main_v46_apply, val_main_v44_apply, val_main_v43_apply, valid_eq,
    hp_eq, hn_eq, val_main_call4_v1_apply, val_main_v45_apply, val_main_v47_apply, val_main_call5_v1_apply]
  rfl

/-- The number of valid rows. -/
theorem cnt_eq (lab : IVec S8192 32) (i : S_.Idx) :
    val_main_v51 (F := Ideal) lab i = Triplet.cnt (Triplet.validR lab) := by
  rw [val_main_v51_apply]
  unfold Triplet.cnt
  refine congrArg₂ (· + ·) rfl (Fintype.sum_equiv idxEquiv1 _ _ fun j => ?_)
  rw [val_main_v50_apply, valid_eq]
  rfl

/-- The sum of the hinges. -/
theorem sumRow_eq (x : FVec Ideal S8192x128 .f32) (lab : IVec S8192 32) (i : S_.Idx) :
    val_main_v53 (F := Ideal) x lab i
      = Triplet.zero + ∑ r : Fin 8192, Triplet.perRow (Triplet.hp x lab) (Triplet.hn x lab) (Triplet.validR lab) r := by
  rw [val_main_v53_apply]
  refine congrArg₂ (· + ·) rfl (Fintype.sum_equiv idxEquiv1 _ _ fun j => ?_)
  rw [perRow_eq]
  rfl

/-- The reference program's result is the loss of the specification, validity decided from the masks. -/
theorem ref_value (x : FVec Ideal S8192x128 .f32) (lab : IVec S8192 32) :
    Cert.ReferenceIdeal.ReadP.val_main_v56 (F := Ideal) x lab
      = fun _ => Triplet.lossOf (Triplet.hp x lab) (Triplet.hn x lab) (Triplet.validR lab) := by
  funext i
  rw [val_main_v56_apply, val_main_v52_apply, val_main_v55_apply, val_main_v54_apply, cnt_eq, sumRow_eq]
  rfl

end Cert.ReferenceIdeal.RefValue

end
-- ==== Proof.lean ====
/-
  The batch-hard triplet loss: a Pallas kernel that tiles the 8192 x 8192 pairwise distances (row tiles of 1024,
  column tiles of 512) and keeps, per row, a running maximum over the positives and a running minimum over the
  negatives, against the plain jnp reference that forms the whole distance matrix.

  Frames. The kernel's program (at the word level and on the extended reals) runs to the end, faults nowhere and
  leaves both arguments as they were: the region's body is run in its three control cases (first, middle and
  last column tile), the two scratch accumulators carried from point to point, and the array the kernel reads
  through two windows (a row tile and a column tile of the same features) is held at two half shares inside the
  region. The reference is host operations only: its run read back.

  Equivalence on the extended reals. Both programs end at
      lossOf hp hn valid,
  hp r the largest distance over the positives of row r, hn r the smallest over the negatives: on the kernel's
  side the sixteen column tiles' maxima (minima) accumulate to the maximum (minimum) over all 8192 columns; on the
  reference's side the row reductions are those extremes directly. The two programs decide which rows are valid
  differently: the kernel asks whether hp r is above -inf and hn r below +inf, the reference whether a positive and a
  negative exist. With finite features every distance is a real number, so the largest over a nonempty set of
  positives is above -inf and the smallest over a nonempty set of negatives is below +inf, and conversely: the two
  answers agree (this is where the precondition is used). No operation of the kernel is rewritten by the
  idealization, so its sanction has nothing to state.
-/
import proofs.«167929_j87471303950746_1_alg».proof.Defs
import proofs.«167929_j87471303950746_1_alg».proof.Proof.Gen.Kernel
import proofs.«167929_j87471303950746_1_alg».proof.Proof.Gen.KernelIdeal
import proofs.«167929_j87471303950746_1_alg».proof.Proof.Gen.ReferenceIdeal
import proofs.«167929_j87471303950746_1_alg».proof.Proof.Gen.Pre_finite_inputs
import proofs.«167929_j87471303950746_1_alg».proof.Proof.KLaunch
import proofs.«167929_j87471303950746_1_alg».proof.Proof.KILaunch
import proofs.«167929_j87471303950746_1_alg».proof.Proof.KITail
import proofs.«167929_j87471303950746_1_alg».proof.Proof.KIValue
import proofs.«167929_j87471303950746_1_alg».proof.Proof.Math
import proofs.«167929_j87471303950746_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end at the loss of the two vectors of extremes with the validity decided from the masks: the kernel's
    validity, decided from the extremes, is that one because the features are finite. -/
theorem algebraic : Cert.algebraic_KernelIdeal_ReferenceIdeal := by
  intro m ρ m' ρ' hpre hagree
  refine ⟨fun c => fun _ => Triplet.lossOf
      (Triplet.hp (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Triplet.hn (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Triplet.validR (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.KernelIdeal.Hand.frame_value (F := Ideal) m ρ)
    rw [Cert.KernelIdeal.Tail.tail_value]
    have e6 : (fun r : Fin 8192 => (Cert.KernelIdeal.Hand.Wx m c (Proc.devRef .tc Cert.KernelIdeal.main_v7_0) : Cert.KernelIdeal.S8192x1.Idx → EReal) (ValueIdx.ix2 r 0))
        = Triplet.hp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
      funext fun r => by rw [Cert.KernelIdeal.Hand.Wx_6]; exact Cert.KernelIdeal.Hand.hp_final m c r
    have e7 : (fun r : Fin 8192 => (Cert.KernelIdeal.Hand.Wx m c (Proc.devRef .tc Cert.KernelIdeal.main_v7_1) : Cert.KernelIdeal.S8192x1.Idx → EReal) (ValueIdx.ix2 r 0))
        = Triplet.hn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
      funext fun r => by rw [Cert.KernelIdeal.Hand.Wx_7]; exact Cert.KernelIdeal.Hand.hn_final m c r
    rw [e6, e7, Triplet.validOf_eq_validR _ _ (Triplet.finite_of_pre _ _ (hpre c))]
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v56_eq, Cert.ReferenceIdeal.RefValue.ref_value, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
